-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x262144 : Shape := ⟨2, ![2, 262144]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8192x128 .f32) (main_arg1 : IVec S2x262144 32) (main_arg2 : FVec F S128x128 .f32) (main_arg3 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S8192x128 : Shape := ⟨2, ![8192, 128]⟩
abbrev S2x262144 : Shape := ⟨2, ![2, 262144]⟩
abbrev S128x128 : Shape := ⟨2, ![128, 128]⟩
abbrev S128 : Shape := ⟨1, ![128]⟩
abbrev S_ : Shape := ⟨0, ![]⟩
abbrev S8192x8192 : Shape := ⟨2, ![8192, 8192]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S1x8192 : Shape := ⟨2, ![1, 8192]⟩
abbrev S1x128 : Shape := ⟨2, ![1, 128]⟩
abbrev S1024x128 : Shape := ⟨2, ![1024, 128]⟩
abbrev S1x1024 : Shape := ⟨2, ![1, 1024]⟩

abbrev nBuf : Space → Nat
  | .hbm => 54
  | .vmem => 18
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S8192x8192, .f32⟩
  | .hbm, ⟨6, _⟩ => ⟨S1x262144, .i32⟩
  | .hbm, ⟨7, _⟩ => ⟨S262144, .i32⟩
  | .hbm, ⟨8, _⟩ => ⟨S1x262144, .i32⟩
  | .hbm, ⟨9, _⟩ => ⟨S262144, .i32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S_, .f32⟩
  | .hbm, ⟨28, _⟩ => ⟨S262144, .f32⟩
  | .hbm, ⟨29, _⟩ => ⟨S8192x8192, .f32⟩
  | .hbm, ⟨30, _⟩ => ⟨S8192x8192, .i32⟩
  | .hbm, ⟨31, _⟩ => ⟨S8192x8192, .i32⟩
  | .hbm, ⟨32, _⟩ => ⟨S_, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S8192x8192, .f32⟩
  | .hbm, ⟨37, _⟩ => ⟨S8192x8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .i1⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S1x8192, .f32⟩
  | .hbm, ⟨51, _⟩ => ⟨S128x128, .f32⟩
  | .hbm, ⟨52, _⟩ => ⟨S1x128, .f32⟩
  | .hbm, ⟨53, _⟩ => ⟨S8192x128, .f32⟩
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x1024, .f32⟩
  | .local _ .vmem, ⟨6, _⟩ => ⟨S1024x1024, .f32⟩
  | .local _ .vmem, ⟨7, _⟩ => ⟨S1024x128, .f32⟩
  | .local _ .vmem, ⟨8, _⟩ => ⟨S1024x128, .f32⟩
  | .local _ .vmem, ⟨9, _⟩ => ⟨S1024x1, .f32⟩
  | .local _ .vmem, ⟨10, _⟩ => ⟨S1024x1, .f32⟩
  | .local _ .vmem, ⟨11, _⟩ => ⟨S1x1024, .f32⟩
  | .local _ .vmem, ⟨12, _⟩ => ⟨S1x1024, .f32⟩
  | .local _ .vmem, ⟨13, _⟩ => ⟨S128x128, .f32⟩
  | .local _ .vmem, ⟨14, _⟩ => ⟨S1x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_call0_v0 : Ref sig .tc := ⟨.hbm, 47, rfl⟩
abbrev main_call0_v1 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_12 : BitVec 32 := 0#32
  let v24 : BitVec 1 := Scalar.cmpi .ne v23 c0_i32_12
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  bcast_S_S8192x1 : S_.BroadcastsInDim S8192x1 (![] : Fin 0 → Fin S8192x1.rank)
  shapeCasts_S8192x1_S1x8192 : S8192x1.ShapeCasts S1x8192
  transposes_S128x128_S128x128_1_0 : S128x128.Transposes [1, 0] S128x128
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  scatter_S8192x8192_S262144x2_S262144_n_01_01_1_wf : ScatterDims.WF S8192x8192 S262144x2 S262144 [] [0, 1] [0, 1] 1
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S8192x128.size a
  hwx1_6 : ∀ i : grid1.Coords, EltTy.bits .f32 = 32 ∨ (Rect.block (s := S8192x128) S1024x128.size (cc1_transform_6 i) (hinb1_6 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v26) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v26) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v35) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S1024x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S2x262144 : Shape := ⟨2, ![2, 262144]⟩
abbrev S128x128 : Shape := ⟨2, ![128, 128]⟩
abbrev S128 : Shape := ⟨1, ![128]⟩
abbrev S_ : Shape := ⟨0, ![]⟩
abbrev S8192x8192 : Shape := ⟨2, ![8192, 8192]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S1x8192 : Shape := ⟨2, ![1, 8192]⟩
abbrev S1x128 : Shape := ⟨2, ![1, 128]⟩

abbrev nBuf : Space → Nat
  | .hbm => 63
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S8192x8192, .f32⟩
  | .hbm, ⟨6, _⟩ => ⟨S1x262144, .i32⟩
  | .hbm, ⟨7, _⟩ => ⟨S262144, .i32⟩
  | .hbm, ⟨8, _⟩ => ⟨S1x262144, .i32⟩
  | .hbm, ⟨9, _⟩ => ⟨S262144, .i32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S_, .f32⟩
  | .hbm, ⟨28, _⟩ => ⟨S262144, .f32⟩
  | .hbm, ⟨29, _⟩ => ⟨S8192x8192, .f32⟩
  | .hbm, ⟨30, _⟩ => ⟨S8192x8192, .i32⟩
  | .hbm, ⟨31, _⟩ => ⟨S8192x8192, .i32⟩
  | .hbm, ⟨32, _⟩ => ⟨S_, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .i1⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192x1, .f32⟩
  | .hbm, ⟨52, _⟩ => ⟨S8192x8192, .f32⟩
  | .hbm, ⟨53, _⟩ => ⟨S8192x8192, .f32⟩
  | .hbm, ⟨54, _⟩ => ⟨S1x8192, .f32⟩
  | .hbm, ⟨55, _⟩ => ⟨S8192x8192, .f32⟩
  | .hbm, ⟨56, _⟩ => ⟨S8192x8192, .f32⟩
  | .hbm, ⟨57, _⟩ => ⟨S8192x128, .f32⟩
  | .hbm, ⟨58, _⟩ => ⟨S128x128, .f32⟩
  | .hbm, ⟨59, _⟩ => ⟨S8192x128, .f32⟩
  | .hbm, ⟨60, _⟩ => ⟨S1x128, .f32⟩
  | .hbm, ⟨61, _⟩ => ⟨S8192x128, .f32⟩
  | .hbm, ⟨62, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_call0_v0 : Ref sig .tc := ⟨.hbm, 48, rfl⟩
abbrev main_call0_v1 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  scatter_S8192x8192_S262144x2_S262144_n_01_01_1_wf : ScatterDims.WF S8192x8192 S262144x2 S262144 [] [0, 1] [0, 1] 1
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.KI.Shared.lean ====
/-
  What both kernels' runs are stated over. Each kernel's grid is 8 × 8 with the second axis (the block of columns,
  `k`) moving fastest, so point `t` has `k = t mod 8`. The body resets its accumulator where `k = 0`, adds
  the block's contribution at every point, and stores its output block where `k = 7`. Here: the two conditions
  decided over the grid, where the output window is idle and where it is written back, the staging and scratch
  memrefs as the pipeline passes them, and the region invariant with the accumulator's buffer taken out of the
  scoped buffers no window stages.
-/
import proofs.«144742_j32641751449979_1_alg».proof.Proof.Gen.KernelIdeal.Launch
import proofs.«144742_j32641751449979_1_alg».proof.Proof.Gen.KernelIdeal.Skeleton
import proofs.«144742_j32641751449979_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The degree kernel (region 0) -/

/-- The accumulator is reset: the point is the first of its row of blocks (`k = 0`). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The output block is stored: the point is the last of its row of blocks (`k = 7`). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
/-- The row-sum accumulator, a scoped buffer of the kernel's own. -/
abbrev scM0 : Memref sig .tc .vmem S1024x1 .f32 := Memref.whole cc0_scratch0
abbrev VO0_1 : View sig .tc .vmem S1024x1 .f32 := (Memref.whole cc0_stg1_0 : Memref sig .tc .vmem S1024x1 .f32).view
abbrev VS0 : View sig .tc .vmem S1024x1 .f32 := scM0.view

/-- The scoped buffers that are neither a staging buffer of region 0 nor its accumulator. -/
abbrev rest0 (c : Dev nD) : sProp 𝕄 :=
  Pipeline.scopedRestBut (Ix := Unit) (Name := ℕ) (U := UR sig nD τ) (Lvl := ℕ) (Val := Elt F) spec0 c [cc0_scratch0]

/-- Region 0's class invariant with the accumulator's buffer named. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [scM0, owns_whole, bigSepL]
  rfl

/-! ## The aggregation kernel (region 1) -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_in : ∀ (w : Fin 6) (t : Fin cfg1.N), cfg1.idle (w.castSucc) (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)
/-- The aggregate's accumulator, a scoped buffer of the kernel's own. -/
abbrev scM1 : Memref sig .tc .vmem S1024x128 .f32 := Memref.whole cc1_scratch0
abbrev VO1_6 : View sig .tc .vmem S1024x128 .f32 := (Memref.whole cc1_stg6_0 : Memref sig .tc .vmem S1024x128 .f32).view
abbrev VS1 : View sig .tc .vmem S1024x128 .f32 := scM1.view

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [scM1, owns_whole, bigSepL]
  rfl

end Cert.KernelIdeal.Frame

end
-- ==== Proof.KI.Run0.lean ====
/-
  The degree kernel's body run once per control case, on any whole staging memrefs. The adjacency block is held at
  its contents `x0`; the accumulator at what the point before left (`xs0`), or at anything where the point resets
  it. Each run ends with the accumulator's buffer written with a list of pieces the run itself finds; where the
  point is the last of its row of blocks, the output buffer likewise. Where it is not, the output buffer comes back
  as it was found.
-/
import proofs.«144742_j32641751449979_1_alg».proof.Proof.KI.Shared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First point of a row of blocks (`k = 0`): the accumulator is zeroed, then the block's row sums are added. -/
noncomputable def kernelRun0_A (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x1024 .f32) :
    { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, fun xi1 E K => ?run⟩
  case run =>
    simp only [cc0__degree_kernel_eq_skeleton]; unfold cc0__degree_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- A middle point (`0 < k < 7`): the block's row sums are added to what the point before left. -/
noncomputable def kernelRun0_B (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x1024 .f32) (xs0 : Vec F S1024x1 .f32) :
    { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, fun xi1 E K => ?run⟩
  case run =>
    simp only [cc0__degree_kernel_eq_skeleton]; unfold cc0__degree_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- Last point of a row of blocks (`k = 7`): the block's row sums are added, and the total is stored as the output block. -/
noncomputable def kernelRun0_C (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x1024 .f32) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Frame

end
-- ==== Proof.KI.Dat0.lean ====
/-
  Region 0 (the degree kernel) as proof data for the pipeline rule, at ANY contents `V` of the core's buffers when
  the region is entered. What the accumulator holds after each grid point is defined by recursion on the point: at the
  first point of a row of blocks what the reset case leaves, elsewhere what the adding case leaves over what the
  point before left. The invariant between points names the accumulator's buffer at exactly that value; the output
  window's staging buffer holds the same value where it is stored (the last point of a row of blocks) and is idle
  elsewhere. With this the body obligation holds at every point, by cases on `t mod 8`.
-/
import proofs.«144742_j32641751449979_1_alg».proof.Proof.KI.Run0

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window is fetched at every point, so its staging buffer holds its block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

end

/-! ## What each case leaves -/

theorem scover0_A (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x1024 .f32) (y : S1024x1.Idx) :
    ∃ pc ∈ (kernelRun0_A c i arg2 harg2 arg3 harg3 arg4 harg4 hc0 hc1 x0).1, y ∈ pc.1.set :=
  View.cover_of_tiledL (kernelRun0_A c i arg2 harg2 arg3 harg3 arg4 harg4 hc0 hc1 x0).1 S1024x1.size (by sl_kernel_rfl) y

/-- The accumulator after a resetting point. -/
def sout0_A (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x1024 .f32) : Vec F S1024x1 .f32 :=
  VS0.read (Elt F) (VS0.writes (Elt F) VS0.junk (kernelRun0_A c i arg2 harg2 arg3 harg3 arg4 harg4 hc0 hc1 x0).1)

theorem scover0_B (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x1024 .f32) (xs0 : Vec F S1024x1 .f32) (y : S1024x1.Idx) :
    ∃ pc ∈ (kernelRun0_B c i arg2 harg2 arg3 harg3 arg4 harg4 hc0 hc1 x0 xs0).1, y ∈ pc.1.set :=
  View.cover_of_tiledL (kernelRun0_B c i arg2 harg2 arg3 harg3 arg4 harg4 hc0 hc1 x0 xs0).1 S1024x1.size (by sl_kernel_rfl) y

/-- The accumulator after a middle point, over what the point before left. -/
def sout0_B (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x1024 .f32) (xs0 : Vec F S1024x1 .f32) : Vec F S1024x1 .f32 :=
  VS0.read (Elt F) (VS0.writes (Elt F) VS0.junk (kernelRun0_B c i arg2 harg2 arg3 harg3 arg4 harg4 hc0 hc1 x0 xs0).1)

theorem cover0_C (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x1024 .f32) (xs0 : Vec F S1024x1 .f32) (y : S1024x1.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1024x1.size (by sl_kernel_rfl) y

/-- The output block stored at the last point of a row of blocks. -/
def out0_C (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x1024 .f32) (xs0 : Vec F S1024x1 .f32) : Vec F S1024x1 .f32 :=
  VO0_1.read (Elt F) (VO0_1.writes (Elt F) VO0_1.junk (kernelRun0_C c i arg2 harg2 arg3 harg3 arg4 harg4 hc0 hc1 x0 xs0).1)

theorem scover0_C (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x1024 .f32) (xs0 : Vec F S1024x1 .f32) (y : S1024x1.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1024x1.size (by sl_kernel_rfl) y

/-- The accumulator after the last point of a row of blocks. -/
def sout0_C (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x1024 .f32) (xs0 : Vec F S1024x1 .f32) : Vec F S1024x1 .f32 :=
  VS0.read (Elt F) (VS0.writes (Elt F) VS0.junk (kernelRun0_C c i arg2 harg2 arg3 harg3 arg4 harg4 hc0 hc1 x0 xs0).2.1)

section
variable (V : (c : Dev nD) → (b : Ref sig .tc) → Buf (Elt F) ((c : Thread nD τ).loc b))

/-! ## The accumulation, point by point -/

theorem not7_of_0 {n : ℕ} (h : n % 8 = 0) : ¬ n % 8 = 7 := by omega

/-- One point: (the output window's staging buffer, the accumulator) after the body at `t`, given what the point
    before left in the accumulator (`prev`, not read at a resetting point). Where the output is not stored its
    component repeats the accumulator's: nothing reads it there. -/
def step0 (c : Dev nD) (t : Fin cfg0.N) (prev : Vec F S1024x1 .f32) : Vec F S1024x1 .f32 × Vec F S1024x1 .f32 :=
  if h0 : t.val % 8 = 0 then
    (sout0_A c (grid0.coords t) (ms0_0 t) (hs0_0 t) (ms0_1 t) (hs0_1 t) scM0 (Memref.isWhole_whole _) ((hcond0_0 t).mpr h0) (fun h => not7_of_0 h0 ((hcond0_1 t).mp h)) (iblk0 V c 0 t),
     sout0_A c (grid0.coords t) (ms0_0 t) (hs0_0 t) (ms0_1 t) (hs0_1 t) scM0 (Memref.isWhole_whole _) ((hcond0_0 t).mpr h0) (fun h => not7_of_0 h0 ((hcond0_1 t).mp h)) (iblk0 V c 0 t))
  else if h1 : t.val % 8 = 7 then
    (out0_C c (grid0.coords t) (ms0_0 t) (hs0_0 t) (ms0_1 t) (hs0_1 t) scM0 (Memref.isWhole_whole _) (fun h => h0 ((hcond0_0 t).mp h)) ((hcond0_1 t).mpr h1) (iblk0 V c 0 t) prev,
     sout0_C c (grid0.coords t) (ms0_0 t) (hs0_0 t) (ms0_1 t) (hs0_1 t) scM0 (Memref.isWhole_whole _) (fun h => h0 ((hcond0_0 t).mp h)) ((hcond0_1 t).mpr h1) (iblk0 V c 0 t) prev)
  else
    (sout0_B c (grid0.coords t) (ms0_0 t) (hs0_0 t) (ms0_1 t) (hs0_1 t) scM0 (Memref.isWhole_whole _) (fun h => h0 ((hcond0_0 t).mp h)) (fun h => h1 ((hcond0_1 t).mp h)) (iblk0 V c 0 t) prev,
     sout0_B c (grid0.coords t) (ms0_0 t) (hs0_0 t) (ms0_1 t) (hs0_1 t) scM0 (Memref.isWhole_whole _) (fun h => h0 ((hcond0_0 t).mp h)) (fun h => h1 ((hcond0_1 t).mp h)) (iblk0 V c 0 t) prev)

/-- (output buffer, accumulator) after the body at position `n`. -/
def outsAt0 (c : Dev nD) : (n : ℕ) → n < cfg0.N → Vec F S1024x1 .f32 × Vec F S1024x1 .f32
  | 0, hn => step0 V c ⟨0, hn⟩ (VS0.read (Elt F) VS0.junk)
  | n + 1, hn => step0 V c ⟨n + 1, hn⟩ (outsAt0 c n (Nat.lt_of_succ_lt hn)).2

theorem step0_A (c : Dev nD) (t : Fin cfg0.N) (prev : Vec F S1024x1 .f32) (h0 : t.val % 8 = 0) :
    step0 V c t prev = (sout0_A c (grid0.coords t) (ms0_0 t) (hs0_0 t) (ms0_1 t) (hs0_1 t) scM0 (Memref.isWhole_whole _) ((hcond0_0 t).mpr h0) (fun h => not7_of_0 h0 ((hcond0_1 t).mp h)) (iblk0 V c 0 t),
      sout0_A c (grid0.coords t) (ms0_0 t) (hs0_0 t) (ms0_1 t) (hs0_1 t) scM0 (Memref.isWhole_whole _) ((hcond0_0 t).mpr h0) (fun h => not7_of_0 h0 ((hcond0_1 t).mp h)) (iblk0 V c 0 t)) := by
  unfold step0; rw [dif_pos h0]

theorem step0_B (c : Dev nD) (t : Fin cfg0.N) (prev : Vec F S1024x1 .f32) (h0 : ¬t.val % 8 = 0) (h1 : ¬t.val % 8 = 7) :
    step0 V c t prev = (sout0_B c (grid0.coords t) (ms0_0 t) (hs0_0 t) (ms0_1 t) (hs0_1 t) scM0 (Memref.isWhole_whole _) (fun h => h0 ((hcond0_0 t).mp h)) (fun h => h1 ((hcond0_1 t).mp h)) (iblk0 V c 0 t) prev,
      sout0_B c (grid0.coords t) (ms0_0 t) (hs0_0 t) (ms0_1 t) (hs0_1 t) scM0 (Memref.isWhole_whole _) (fun h => h0 ((hcond0_0 t).mp h)) (fun h => h1 ((hcond0_1 t).mp h)) (iblk0 V c 0 t) prev) := by
  unfold step0; rw [dif_neg h0, dif_neg h1]

theorem step0_C (c : Dev nD) (t : Fin cfg0.N) (prev : Vec F S1024x1 .f32) (h0 : ¬t.val % 8 = 0) (h1 : t.val % 8 = 7) :
    step0 V c t prev = (out0_C c (grid0.coords t) (ms0_0 t) (hs0_0 t) (ms0_1 t) (hs0_1 t) scM0 (Memref.isWhole_whole _) (fun h => h0 ((hcond0_0 t).mp h)) ((hcond0_1 t).mpr h1) (iblk0 V c 0 t) prev,
      sout0_C c (grid0.coords t) (ms0_0 t) (hs0_0 t) (ms0_1 t) (hs0_1 t) scM0 (Memref.isWhole_whole _) (fun h => h0 ((hcond0_0 t).mp h)) ((hcond0_1 t).mpr h1) (iblk0 V c 0 t) prev) := by
  unfold step0; rw [dif_neg h0, dif_pos h1]

/-- What the point before `t` left in the accumulator (anything at the very first point, where it is not read). -/
def prev0 (c : Dev nD) : (n : ℕ) → n < cfg0.N → Vec F S1024x1 .f32
  | 0, _ => VS0.read (Elt F) VS0.junk
  | n + 1, hn => (outsAt0 V c n (Nat.lt_of_succ_lt hn)).2

theorem outsAt0_step (c : Dev nD) (t : Fin cfg0.N) : outsAt0 V c t.val t.isLt = step0 V c t (prev0 V c t.val t.isLt) := by
  obtain ⟨n, hn⟩ := t
  cases n with
  | zero => rfl
  | succ n => rfl

theorem prev0_pos (c : Dev nD) (t : Fin cfg0.N) (hz : t.val ≠ 0) :
    prev0 V c t.val t.isLt = (outsAt0 V c (t.val - 1) (Nat.lt_of_le_of_lt (Nat.sub_le _ _) t.isLt)).2 := by
  obtain ⟨n, hn⟩ := t
  cases n with
  | zero => exact absurd rfl hz
  | succ n => rfl

theorem outsAt0_A (c : Dev nD) (t : Fin cfg0.N) (h0 : t.val % 8 = 0) :
    (outsAt0 V c t.val t.isLt).2 = sout0_A c (grid0.coords t) (ms0_0 t) (hs0_0 t) (ms0_1 t) (hs0_1 t) scM0 (Memref.isWhole_whole _) ((hcond0_0 t).mpr h0) (fun h => not7_of_0 h0 ((hcond0_1 t).mp h)) (iblk0 V c 0 t) := by
  rw [outsAt0_step V c t, step0_A V c t _ h0]

theorem outsAt0_B (c : Dev nD) (t : Fin cfg0.N) (h0 : ¬t.val % 8 = 0) (h1 : ¬t.val % 8 = 7) :
    (outsAt0 V c t.val t.isLt).2 = sout0_B c (grid0.coords t) (ms0_0 t) (hs0_0 t) (ms0_1 t) (hs0_1 t) scM0 (Memref.isWhole_whole _) (fun h => h0 ((hcond0_0 t).mp h)) (fun h => h1 ((hcond0_1 t).mp h)) (iblk0 V c 0 t)
      (outsAt0 V c (t.val - 1) (Nat.lt_of_le_of_lt (Nat.sub_le _ _) t.isLt)).2 := by
  rw [outsAt0_step V c t, step0_B V c t _ h0 h1, prev0_pos V c t (fun hz => h0 (by rw [hz]))]

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) scM0 (Memref.isWhole_whole _) (fun h => h0 ((hcond0_0 t).mp h)) ((hcond0_1 t).mpr h1) (iblk0 V c 0 t)
        (outsAt0 V c (t.val - 1) (Nat.lt_of_le_of_lt (Nat.sub_le _ _) t.isLt)).2,
      sout0_C c (grid0.coords t) (ms0_0 t) (hs0_0 t) (ms0_1 t) (hs0_1 t) scM0 (Memref.isWhole_whole _) (fun h => h0 ((hcond0_0 t).mp h)) ((hcond0_1 t).mpr h1) (iblk0 V c 0 t)
        (outsAt0 V c (t.val - 1) (Nat.lt_of_le_of_lt (Nat.sub_le _ _) t.isLt)).2) := by
  rw [outsAt0_step V c t, step0_C V c t _ h0 h1, prev0_pos V c t (fun hz => h0 (by rw [hz]))]

/-! ## The invariant between points -/

/-- Before the first point the class's invariant (every scoped buffer no window stages at anything); afterwards the
    accumulator's buffer at what the point before left, the other such buffers at anything, the generator register
    at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  by_cases h0 : t.val % 8 = 0
  · have h1 : ¬ t.val % 8 = 7 := not7_of_0 h0
    rw [Dat.leavesExact_idle (dat0 V c) 1 t (idleAt0_1 t (fun h => h1 ((hcond0_1 t).mp h))) (noFlush0_1 t (fun h => h1 ((hcond0_1 t).mp h)))]
    rw [outsAt0_A V c t h0]
    unfold sout0_A; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩⟩
      iapply ((kernelRun0_A c (grid0.coords t) _ _ _ _ _ _ ((hcond0_0 t).mpr h0) (fun h => h1 ((hcond0_1 t).mp h)) (iblk0 V c 0 t)).2 _ Set.univ _)
      isplitl [H0]; · iexact H0
      isplitl [H1]; · iexact H1
      isplitl [HS0]; · iexact HS0
      iintro ⟨H0, H1, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_A c _ _ _ _ _ _ _ _ _ _)
          iexact Hrest
        iexact Hg
      isplitl [Ho]; · iexact Ho
      isplitl [H0]; · iexact H0
      iexists _; iexact H1
    · rw [PhiS0_castSucc V c t, PhiS0_pos V c _ _ hz]
      iintro ⟨⟨⟨HS0, Hrest⟩, Hg⟩, Ho, ⟨%d0, H0⟩, ⟨%d1, H1⟩⟩
      iapply ((kernelRun0_A c (grid0.coords t) _ _ _ _ _ _ ((hcond0_0 t).mpr h0) (fun h => h1 ((hcond0_1 t).mp h)) (iblk0 V c 0 t)).2 _ Set.univ _)
      isplitl [H0]; · iexact H0
      isplitl [H1]; · iexact H1
      isplitl [HS0]; · iexists _; iexact HS0
      iintro ⟨H0, H1, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_A c _ _ _ _ _ _ _ _ _ _)
          iexact Hrest
        iexact Hg
      isplitl [Ho]; · iexact Ho
      isplitl [H0]; · iexact H0
      iexists _; iexact H1
  · have hz : t.val ≠ 0 := fun hz => h0 (by rw [hz])
    by_cases h1 : t.val % 8 = 7
    · rw [show (dat0 V c).leavesExact 1 t = owns (c : Thread nD τ) (ms0_1 t) fullShare ((dat0 V c).after 1 t) from by
        unfold Dat.leavesExact; rw [liveAt0_1 t ((hcond0_1 t).mpr h1)], after0_1]
      rw [outsAt0_C V c t h0 h1]
      unfold out0_C sout0_C; (try dsimp only)
      rw [PhiS0_castSucc V c t, PhiS0_pos V c _ _ hz]
      iintro ⟨⟨⟨HS0, Hrest⟩, Hg⟩, Ho, ⟨%d0, H0⟩, ⟨%d1, H1⟩⟩
      iapply ((kernelRun0_C c (grid0.coords t) _ _ _ _ _ _ (fun h => h0 ((hcond0_0 t).mp h)) ((hcond0_1 t).mpr h1) (iblk0 V c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_C c _ _ _ _ _ _ _ _ _ _ _)
          iexact Hrest
        iexact Hg
      isplitl [Ho]; · iexact Ho
      isplitl [H0]; · iexact H0
      unfold owns; iexists _; isplitr
      swap; · iexact H1
      ipureintro; exact View.read_writes_of_cover _ _ _ _ _ (cover0_C c _ _ _ _ _ _ _ _ _ _ _)
    · rw [Dat.leavesExact_idle (dat0 V c) 1 t (idleAt0_1 t (fun h => h1 ((hcond0_1 t).mp h))) (noFlush0_1 t (fun h => h1 ((hcond0_1 t).mp h)))]
      rw [outsAt0_B V c t h0 h1]
      unfold sout0_B; (try dsimp only)
      rw [PhiS0_castSucc V c t, PhiS0_pos V c _ _ hz]
      iintro ⟨⟨⟨HS0, Hrest⟩, Hg⟩, Ho, ⟨%d0, H0⟩, ⟨%d1, H1⟩⟩
      iapply ((kernelRun0_B c (grid0.coords t) _ _ _ _ _ _ (fun h => h0 ((hcond0_0 t).mp h)) (fun h => h1 ((hcond0_1 t).mp h)) (iblk0 V c 0 t) _).2 _ Set.univ _)
      isplitl [H0]; · iexact H0
      isplitl [H1]; · iexact H1
      isplitl [HS0]; · iexact HS0
      iintro ⟨H0, H1, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_B c _ _ _ _ _ _ _ _ _ _ _)
          iexact Hrest
        iexact Hg
      isplitl [Ho]; · iexact Ho
      isplitl [H0]; · iexact H0
      iexists _; iexact H1

theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, Hrest⟩, Hg⟩
  isplitl [HS0 Hrest]
  · isplitl [HS0]
    · iexists _; iexact HS0
    iexact Hrest
  iexact Hg

end

end Cert.KernelIdeal.Frame

end
-- ==== Proof.KI.Run1.lean ====
/-
  The aggregation kernel's body run once per control case, on any whole staging memrefs: the adjacency block, the
  feature block, the two blocks of inverse square-root degrees, the transposed weight and the bias row are held at
  their contents; the accumulator at what the point before left (`xs0`), or at anything where the point resets it.
  Each run ends with the accumulator's buffer written with the pieces the run finds; at the last point of a row of
  blocks the output buffer likewise, elsewhere it comes back as found.
-/
import proofs.«144742_j32641751449979_1_alg».proof.Proof.KI.Shared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- First point of a row of blocks: the accumulator is zeroed, then the scaled block's product with the features is added. -/
noncomputable def kernelRun1_A (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x1024 .f32) (x1 : Vec F S1024x128 .f32) (x2 : Vec F S1024x1 .f32) (x3 : Vec F S1x1024 .f32) (x4 : Vec F S128x128 .f32) (x5 : Vec F S1x128 .f32) :
    { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?_, fun xi6 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 2000000 in
/-- A middle point: the scaled block's product with the features is added to what the point before left. -/
noncomputable def kernelRun1_B (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x1024 .f32) (x1 : Vec F S1024x128 .f32) (x2 : Vec F S1024x1 .f32) (x3 : Vec F S1x1024 .f32) (x4 : Vec F S128x128 .f32) (x5 : Vec F S1x128 .f32) (xs0 : Vec F S1024x128 .f32) :
    { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?_, fun xi6 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 2000000 in
/-- Last point of a row of blocks: the product is added, and the total times the transposed weight plus the bias is
    stored as the output block. -/
noncomputable def kernelRun1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x1024 .f32) (x1 : Vec F S1024x128 .f32) (x2 : Vec F S1024x1 .f32) (x3 : Vec F S1x1024 .f32) (x4 : Vec F S128x128 .f32) (x5 : Vec F S1x128 .f32) (xs0 : Vec F S1024x128 .f32) :
    Σ' (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_kernel i arg2 harg2 arg3 harg3 arg4 harg4 arg5 harg5 arg6 harg6 arg7 harg7 arg8 harg8 arg9 harg9) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Frame

end
-- ==== Proof.KI.Dat1.lean ====
/-
  Region 1 (the aggregation kernel) as proof data for the pipeline rule, at ANY contents `V` of the core's buffers
  when the region is entered. As for the degree kernel, what the accumulator holds after each grid point is defined by
  recursion on the point: at the first point of a row of blocks what the reset case leaves, elsewhere what the adding
  case leaves over what the point before left. The six input windows hold their blocks at every point, fetched
  there or not (a window whose block index does not move is not fetched again). The output window's staging buffer
  holds the finished block where it is stored (the last point of a row of blocks) and is idle elsewhere.
-/
import proofs.«144742_j32641751449979_1_alg».proof.Proof.KI.Run1

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl

/-! ## What each case leaves -/

theorem scover1_A (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x1024 .f32) (x1 : Vec F S1024x128 .f32) (x2 : Vec F S1024x1 .f32) (x3 : Vec F S1x1024 .f32) (x4 : Vec F S128x128 .f32) (x5 : Vec F S1x128 .f32) (y : S1024x128.Idx) :
    ∃ pc ∈ (kernelRun1_A c i arg2 harg2 arg3 harg3 arg4 harg4 arg5 harg5 arg6 harg6 arg7 harg7 arg8 harg8 arg9 harg9 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).1 S1024x128.size (by sl_kernel_rfl) y

/-- The accumulator after a resetting point. -/
def sout1_A (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x1024 .f32) (x1 : Vec F S1024x128 .f32) (x2 : Vec F S1024x1 .f32) (x3 : Vec F S1x1024 .f32) (x4 : Vec F S128x128 .f32) (x5 : Vec F S1x128 .f32) : Vec F S1024x128 .f32 :=
  VS1.read (Elt F) (VS1.writes (Elt F) VS1.junk (kernelRun1_A c i arg2 harg2 arg3 harg3 arg4 harg4 arg5 harg5 arg6 harg6 arg7 harg7 arg8 harg8 arg9 harg9 hc0 hc1 x0 x1 x2 x3 x4 x5).1)

theorem scover1_B (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x1024 .f32) (x1 : Vec F S1024x128 .f32) (x2 : Vec F S1024x1 .f32) (x3 : Vec F S1x1024 .f32) (x4 : Vec F S128x128 .f32) (x5 : Vec F S1x128 .f32) (xs0 : Vec F S1024x128 .f32) (y : S1024x128.Idx) :
    ∃ pc ∈ (kernelRun1_B c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).1 S1024x128.size (by sl_kernel_rfl) y

/-- The accumulator after a middle point, over what the point before left. -/
def sout1_B (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x1024 .f32) (x1 : Vec F S1024x128 .f32) (x2 : Vec F S1024x1 .f32) (x3 : Vec F S1x1024 .f32) (x4 : Vec F S128x128 .f32) (x5 : Vec F S1x128 .f32) (xs0 : Vec F S1024x128 .f32) : Vec F S1024x128 .f32 :=
  VS1.read (Elt F) (VS1.writes (Elt F) VS1.junk (kernelRun1_B c i arg2 harg2 arg3 harg3 arg4 harg4 arg5 harg5 arg6 harg6 arg7 harg7 arg8 harg8 arg9 harg9 hc0 hc1 x0 x1 x2 x3 x4 x5 xs0).1)

theorem cover1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x1024 .f32) (x1 : Vec F S1024x128 .f32) (x2 : Vec F S1024x1 .f32) (x3 : Vec F S1x1024 .f32) (x4 : Vec F S128x128 .f32) (x5 : Vec F S1x128 .f32) (xs0 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S1024x128.size (by sl_kernel_rfl) y

/-- The output block stored at the last point of a row of blocks. -/
def out1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x1024 .f32) (x1 : Vec F S1024x128 .f32) (x2 : Vec F S1024x1 .f32) (x3 : Vec F S1x1024 .f32) (x4 : Vec F S128x128 .f32) (x5 : Vec F S1x128 .f32) (xs0 : Vec F S1024x128 .f32) : Vec F S1024x128 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

theorem scover1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x1024 .f32) (x1 : Vec F S1024x128 .f32) (x2 : Vec F S1024x1 .f32) (x3 : Vec F S1x1024 .f32) (x4 : Vec F S128x128 .f32) (x5 : Vec F S1x128 .f32) (xs0 : Vec F S1024x128 .f32) (y : S1024x128.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- The accumulator after the last point of a row of blocks. -/
def sout1_C (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x1024 .f32) (x1 : Vec F S1024x128 .f32) (x2 : Vec F S1024x1 .f32) (x3 : Vec F S1x1024 .f32) (x4 : Vec F S128x128 .f32) (x5 : Vec F S1x128 .f32) (xs0 : Vec F S1024x128 .f32) : Vec F S1024x128 .f32 :=
  VS1.read (Elt F) (VS1.writes (Elt F) VS1.junk (kernelRun1_C c i arg2 harg2 arg3 harg3 arg4 harg4 arg5 harg5 arg6 harg6 arg7 harg7 arg8 harg8 arg9 harg9 hc0 hc1 x0 x1 x2 x3 x4 x5 xs0).2.1)

section
variable (V : (c : Dev nD) → (b : Ref sig .tc) → Buf (Elt F) ((c : Thread nD τ).loc b))

/-! ## The accumulation, point by point -/

theorem not7_of_0' {n : ℕ} (h : n % 8 = 0) : ¬ n % 8 = 7 := by omega

/-- One point: (the output window's staging buffer, the accumulator) after the body at `t`, given what the point
    before left in the accumulator (`prev`, not read at a resetting point). Where the output is not stored its
    component repeats the accumulator's: nothing reads it there. -/
def step1 (c : Dev nD) (t : Fin cfg1.N) (prev : Vec F S1024x128 .f32) : Vec F S1024x128 .f32 × Vec F S1024x128 .f32 :=
  if h0 : t.val % 8 = 0 then
    (sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => not7_of_0' h0 ((hcond1_1 t).mp h)) (iblk1 V c 0 t) (iblk1 V c 1 t) (iblk1 V c 2 t) (iblk1 V c 3 t) (iblk1 V c 4 t) (iblk1 V c 5 t),
     sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => not7_of_0' h0 ((hcond1_1 t).mp h)) (iblk1 V c 0 t) (iblk1 V c 1 t) (iblk1 V c 2 t) (iblk1 V c 3 t) (iblk1 V c 4 t) (iblk1 V c 5 t))
  else if h1 : t.val % 8 = 7 then
    (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) prev,
     sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) prev)
  else
    (sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) prev,
     sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) prev)

/-- (output buffer, accumulator) after the body at position `n`. -/
def outsAt1 (c : Dev nD) : (n : ℕ) → n < cfg1.N → Vec F S1024x128 .f32 × Vec F S1024x128 .f32
  | 0, hn => step1 V c ⟨0, hn⟩ (VS1.read (Elt F) VS1.junk)
  | n + 1, hn => step1 V c ⟨n + 1, hn⟩ (outsAt1 c n (Nat.lt_of_succ_lt hn)).2

theorem step1_A (c : Dev nD) (t : Fin cfg1.N) (prev : Vec F S1024x128 .f32) (h0 : t.val % 8 = 0) :
    step1 V c t prev = (sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => not7_of_0' h0 ((hcond1_1 t).mp h)) (iblk1 V c 0 t) (iblk1 V c 1 t) (iblk1 V c 2 t) (iblk1 V c 3 t) (iblk1 V c 4 t) (iblk1 V c 5 t),
      sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => not7_of_0' h0 ((hcond1_1 t).mp h)) (iblk1 V c 0 t) (iblk1 V c 1 t) (iblk1 V c 2 t) (iblk1 V c 3 t) (iblk1 V c 4 t) (iblk1 V c 5 t)) := by
  unfold step1; rw [dif_pos h0]

theorem step1_B (c : Dev nD) (t : Fin cfg1.N) (prev : Vec F S1024x128 .f32) (h0 : ¬t.val % 8 = 0) (h1 : ¬t.val % 8 = 7) :
    step1 V c t prev = (sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) prev,
      sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) prev) := by
  unfold step1; rw [dif_neg h0, dif_neg h1]

theorem step1_C (c : Dev nD) (t : Fin cfg1.N) (prev : Vec F S1024x128 .f32) (h0 : ¬t.val % 8 = 0) (h1 : t.val % 8 = 7) :
    step1 V c t prev = (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) prev,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) prev) := by
  unfold step1; rw [dif_neg h0, dif_pos h1]

/-- What the point before `t` left in the accumulator (anything at the very first point, where it is not read). -/
def prev1 (c : Dev nD) : (n : ℕ) → n < cfg1.N → Vec F S1024x128 .f32
  | 0, _ => VS1.read (Elt F) VS1.junk
  | n + 1, hn => (outsAt1 V c n (Nat.lt_of_succ_lt hn)).2

theorem outsAt1_step (c : Dev nD) (t : Fin cfg1.N) : outsAt1 V c t.val t.isLt = step1 V c t (prev1 V c t.val t.isLt) := by
  obtain ⟨n, hn⟩ := t
  cases n with
  | zero => rfl
  | succ n => rfl

theorem prev1_pos (c : Dev nD) (t : Fin cfg1.N) (hz : t.val ≠ 0) :
    prev1 V c t.val t.isLt = (outsAt1 V c (t.val - 1) (Nat.lt_of_le_of_lt (Nat.sub_le _ _) t.isLt)).2 := by
  obtain ⟨n, hn⟩ := t
  cases n with
  | zero => exact absurd rfl hz
  | succ n => rfl

theorem outsAt1_A (c : Dev nD) (t : Fin cfg1.N) (h0 : t.val % 8 = 0) :
    (outsAt1 V c t.val t.isLt).2 = sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => not7_of_0' h0 ((hcond1_1 t).mp h)) (iblk1 V c 0 t) (iblk1 V c 1 t) (iblk1 V c 2 t) (iblk1 V c 3 t) (iblk1 V c 4 t) (iblk1 V c 5 t) := by
  rw [outsAt1_step V c t, step1_A V c t _ h0]

theorem outsAt1_B (c : Dev nD) (t : Fin cfg1.N) (h0 : ¬t.val % 8 = 0) (h1 : ¬t.val % 8 = 7) :
    (outsAt1 V c t.val t.isLt).2 = sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t)
      (outsAt1 V c (t.val - 1) (Nat.lt_of_le_of_lt (Nat.sub_le _ _) t.isLt)).2 := by
  rw [outsAt1_step V c t, step1_B V c t _ h0 h1, prev1_pos V c t (fun hz => h0 (by rw [hz]))]

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t)
        (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t)
        (outsAt1 V c (t.val - 1) (Nat.lt_of_le_of_lt (Nat.sub_le _ _) t.isLt)).2) := by
  rw [outsAt1_step V c t, step1_C V c t _ h0 h1, prev1_pos V c t (fun hz => h0 (by rw [hz]))]

/-! ## The invariant between points -/

def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 8 = 0
  · have h1 : ¬ t.val % 8 = 7 := not7_of_0' h0
    rw [Dat.leavesExact_idle (dat1 V c) 6 t (idleAt1_6 t (fun h => h1 ((hcond1_1 t).mp h))) (noFlush1_6 t (fun h => h1 ((hcond1_1 t).mp h)))]
    rw [outsAt1_A V c t h0]
    unfold sout1_A; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_A c _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_A c _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun hz => h0 (by rw [hz])
    by_cases h1 : t.val % 8 = 7
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C sout1_C; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_C c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C c _ _ _ _ _ _ _ _ _ _ _ _ _ _ _ _ _ _ _ _ _ _ _ _ _ _)
    · rw [Dat.leavesExact_idle (dat1 V c) 6 t (idleAt1_6 t (fun h => h1 ((hcond1_1 t).mp h))) (noFlush1_6 t (fun h => h1 ((hcond1_1 t).mp h)))]
      rw [outsAt1_B V c t h0 h1]
      unfold sout1_B; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover1_B c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hrest⟩, Hg⟩
  isplitl [HS0 Hrest]
  · isplitl [HS0]
    · iexists _; iexact HS0
    iexact Hrest
  iexact Hg

end

end Cert.KernelIdeal.Frame

end
-- ==== Proof.KI.Run.lean ====
/-
  The launch. @main is six segments: the host operations that build the dense adjacency, the degree kernel's region,
  three short stretches of host operations (the inverse square roots of the degrees, their `where`, the reshapes and
  the transpose), and the aggregation kernel's region. The core's unscoped buffers are followed from boundary to
  boundary: a host stretch leaves them at `StableHlo.after` of its operations, a region leaves its windows' arrays at
  what its write-backs fold to (the proof data's `arrAt` at the last point) and every other buffer as entered. Every
  weakly fair execution terminates with every unscoped buffer at the last boundary's contents; the frame claim and
  the value of the result buffer are read off that.
-/
import proofs.«144742_j32641751449979_1_alg».proof.Proof.KI.Dat0
import proofs.«144742_j32641751449979_1_alg».proof.Proof.KI.Dat1
import proofs.«144742_j32641751449979_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the degree kernel's region: its output array at what its write-backs fold to. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b
/-- After the aggregation kernel's region: its output array at what its write-backs fold to. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-! ## A buffer no segment writes ends as launched -/

/-- A reference that no host stretch writes and that is no output array of a region keeps its launch contents up to
    the second region's entry. -/
theorem W5_kept (c : Dev nD) (b : Ref sig .tc) (h0 : b ∉ hostOps0_W) (h1 : b ∉ hostOps1_W) (h2 : b ∉ hostOps1_1_W) (h3 : b ∉ hostOps1_2_W)
    (hb : ∀ w, Pipeline.arrRef spec0 w ≠ b) : W5 m c (Proc.devRef .tc b) = m ((c : Thread nD τ).loc b) :=
  calc W5 m c (Proc.devRef .tc b)
    _ = W4 m c (Proc.devRef .tc b) := StableHlo.after_of_writes_sub hostOps1_2 _ hostOps1_2_writes h3
    _ = W3 m c (Proc.devRef .tc b) := StableHlo.after_of_writes_sub hostOps1_1 _ hostOps1_1_writes h2
    _ = W2 m c (Proc.devRef .tc b) := StableHlo.after_of_writes_sub hostOps1 _ hostOps1_writes h1
    _ = W1 m c (Proc.devRef .tc b) := W2_of_ne m c b hb
    _ = W0 m c (Proc.devRef .tc b) := StableHlo.after_of_writes_sub hostOps0 _ hostOps0_writes h0
    _ = m ((c : Thread nD τ).loc b) := rfl

/-- The feature matrix is an input window of the second region: it ends as launched. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := (W6_arr m c 1).trans (((dat1 (V5 m) c).arrAt_in 1 rfl _).trans (A_eq1 (V5 m) c 1))
    _ = m ((c : Thread nD τ).loc main_arg0) := W5_kept m c main_arg0 (by decide) (by decide) (by decide) (by decide) (by decide)
theorem W6_main_arg1 (c : Dev nD) : W6 m c (Proc.devRef .tc main_arg1) = m ((c : Thread nD τ).loc main_arg1) :=
  (W6_of_ne m c main_arg1 (by decide)).trans (W5_kept m c main_arg1 (by decide) (by decide) (by decide) (by decide) (by decide))
theorem W6_main_arg2 (c : Dev nD) : W6 m c (Proc.devRef .tc main_arg2) = m ((c : Thread nD τ).loc main_arg2) :=
  (W6_of_ne m c main_arg2 (by decide)).trans (W5_kept m c main_arg2 (by decide) (by decide) (by decide) (by decide) (by decide))
theorem W6_main_arg3 (c : Dev nD) : W6 m c (Proc.devRef .tc main_arg3) = m ((c : Thread nD τ).loc main_arg3) :=
  (W6_of_ne m c main_arg3 (by decide)).trans (W5_kept m c main_arg3 (by decide) (by decide) (by decide) (by decide) (by decide))
/-- The result buffer ends at what the second region's write-backs fold to. -/
theorem W6_main_v37 (c : Dev nD) : W6 m c (Proc.devRef .tc main_v37) = (dat1 (V5 m) c).arrAt 6 cfg1.N := W6_arr m c 6

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h1 : (pdats m 0 c).Φ (Fin.last _) ⊢ (Pipeline.ΦA spec0 c : sProp 𝕄) := hout0 (V1 m) c
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact h1.trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h1 : (pdats m 1 c).Φ (Fin.last _) ⊢ (Pipeline.ΦA spec1 c : sProp 𝕄) := hout1 (V5 m) c
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact h1.trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m) ]
theorem main_run (c : Dev nD) : main (F := F) c = Pipeline.Seg.run (segs m) := (main_chain c).trans (by chain_rfl)

set_option backward.isDefEq.respectTransparency.types false in
/-- Every weakly fair execution of @main from memory `m` with zero counters terminates, and every final memory holds
    every unscoped buffer of each core at the last boundary's contents. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- The frame: the four argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run m ρ)

/-- The run with the result buffer named: what the aggregation region's write-backs fold to, from the contents the
    region is entered with. -/
theorem run_value (ρ : Dev nD → PrngReg) : θ_run defs (onTc (τ := τ) (main (F := F))) ⟨m, fun _ => 0, ρ⟩ (fun r => ∀ c : Dev nD,
      r.2.mem ((c.tc : Thread nD τ).loc main_v37) = (dat1 (V5 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v37 (by decide))).trans (W6_main_v37 m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run m ρ)

end Cert.KernelIdeal.Frame

end
-- ==== Proof.Spec.lean ====
/-
  The function both programs compute, over the extended reals. `A` is the dense adjacency with self loops; a row's
  degree is the sum of its entries; each entry is scaled by one over the square root of its row's degree and of its
  column's degree (zero where a degree is not positive); the scaled adjacency is multiplied with the features, the
  result with the transposed weight, and the bias is added.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

abbrev S_NN : Shape := ⟨2, ![8192, 8192]⟩
abbrev S_ND : Shape := ⟨2, ![8192, 128]⟩
abbrev S_DD : Shape := ⟨2, ![128, 128]⟩
abbrev S_D : Shape := ⟨1, ![128]⟩

/-- One over the square root of a degree `d`, zero where `d` is not positive: the host's compare, square root,
    quotient and select at one element. -/
def dinv (d : EReal) : EReal :=
  Scalar.select (FloatOps.cmpf (F := Ideal) (φ := .f32) .ogt d (FloatOps.ofBits (F := Ideal) .f32 0x00000000#32))
    (FloatOps.hostDivf (F := Ideal) (φ := .f32) (FloatOps.ofBits (F := Ideal) .f32 0x3F800000#32)
      (FloatOps.hostUnary (F := Ideal) (φ := .f32) .sqrt d))
    (FloatOps.ofBits (F := Ideal) .f32 0x00000000#32)

/-- Row `r`'s degree: the sum of the adjacency's row. -/
def deg (A : S_NN.Idx → EReal) (r : Fin 8192) : EReal := ∑ J : Fin 8192, A (ix2 r J)

/-- The aggregate of the features under the symmetrically normalized adjacency, at row `r` and feature `e`. -/
def agg (A : S_NN.Idx → EReal) (x : S_ND.Idx → EReal) (r : Fin 8192) (e : Fin 128) : EReal :=
  ∑ J : Fin 8192, ((A (ix2 r J) * dinv (deg A r)) * dinv (deg A J)) * x (ix2 J e)

/-- The layer's output: the aggregate times the transposed weight, plus the bias. -/
def out (A : S_NN.Idx → EReal) (x : S_ND.Idx → EReal) (W : S_DD.Idx → EReal) (b : S_D.Idx → EReal) : S_ND.Idx → EReal :=
  fun i => (∑ e : Fin 128, agg A x (i 0) e * W (ix2 (i 1) e)) + b (ix1 (i 1))

end Cert.Spec

end
-- ==== Proof.RefValue.lean ====
/-
  The reference's result is the specification's function of the adjacency it builds: entry by entry, the host's row
  sum is the degree, the compare / square root / quotient / select chain is `dinv` of it, the two broadcasts put the
  row's and the column's factor beside each adjacency entry, and the two `dot_general`s and the bias are the
  specification's sums.
-/
import proofs.«144742_j32641751449979_1_alg».proof.Proof.RefReadP
import proofs.«144742_j32641751449979_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open scoped BigOperators

/-- The host's row sum of the adjacency, started from the zero constant, is the row's degree. -/
theorem rowsum_eq_deg (x1 : (⟨S2x262144, .i32⟩ : BufTy).Contents (Elt Ideal)) (r : Fin 8192) :
    val_main_v27 (F := Ideal) x1 (ix1 r) = Cert.Spec.deg (val_main_v26 (F := Ideal) x1) r := by
  rw [val_main_v27_apply, val_main_cst_5_apply]
  show Ideal.ofBits .f32 0x00000000#32 + _ = _
  rw [Ideal.ofBits_zero_f32, zero_add]
  unfold Cert.Spec.deg
  refine Finset.sum_congr rfl fun k _ => ?_
  exact congrArg _ (funext fun a => Fin.ext (by match a with | ⟨0, _⟩ => rfl | ⟨1, _⟩ => rfl))

/-- The compare / square root / quotient / select chain at row `r` is `dinv` of the row's degree: every stage is
    pointwise, and the three broadcast constants are the words `dinv` names. -/
theorem scale_eq_dinv (x1 : (⟨S2x262144, .i32⟩ : BufTy).Contents (Elt Ideal)) (r : Fin 8192) :
    val_main_v33 (F := Ideal) x1 (ix1 r) = Cert.Spec.dinv (Cert.Spec.deg (val_main_v26 (F := Ideal) x1) r) := by
  rw [val_main_v33_apply, val_main_v29_apply, val_main_v32_apply, val_main_v30_apply, val_main_v28_apply,
    val_main_v31_apply, val_main_call0_v1_apply, val_main_call0_v0_apply, val_main_cst_6_apply, val_main_cst_7_apply,
    val_main_cst_8_apply, rowsum_eq_deg]
  rfl

/-- The twice-scaled adjacency at `(r, J)`: the entry times the row's factor (broadcast along the row) times the
    column's factor (broadcast along the column). -/
theorem scaled_adj (x1 : (⟨S2x262144, .i32⟩ : BufTy).Contents (Elt Ideal)) (r J : Fin 8192) :
    val_main_v39 (F := Ideal) x1 (ix2 r J)
      = (val_main_v26 (F := Ideal) x1 (ix2 r J) * Cert.Spec.dinv (Cert.Spec.deg (val_main_v26 (F := Ideal) x1) r))
          * Cert.Spec.dinv (Cert.Spec.deg (val_main_v26 (F := Ideal) x1) J) := by
  have e1 : idx_main_v34 (idx_main_v35 (ix2 r J : S8192x8192.Idx)) = ix1 r :=
    funext fun a => Fin.ext (by match a with | ⟨0, _⟩ => rfl)
  have e2 : idx_main_v37 (idx_main_v38 (ix2 r J : S8192x8192.Idx)) = ix1 J :=
    funext fun a => Fin.ext (by match a with | ⟨0, _⟩ => rfl)
  rw [val_main_v39_apply, val_main_v36_apply, val_main_v35_apply, val_main_v34_apply, val_main_v38_apply,
    val_main_v37_apply, e1, e2, scale_eq_dinv, scale_eq_dinv]
  rfl

/-- The first `dot_general` contracts the scaled adjacency's column with the features' row: the aggregate. -/
theorem dot_eq_agg (x0 : (⟨S8192x128, .f32⟩ : BufTy).Contents (Elt Ideal)) (x1 : (⟨S2x262144, .i32⟩ : BufTy).Contents (Elt Ideal))
    (r : Fin 8192) (e : Fin 128) :
    val_main_v40 (F := Ideal) x0 x1 (ix2 r e) = Cert.Spec.agg (val_main_v26 (F := Ideal) x1) x0 r e := by
  rw [val_main_v40_apply]
  unfold Cert.Spec.agg
  refine Finset.sum_congr rfl fun k _ => ?_
  have el : lidx_main_v40 (ix2 r e : S8192x128.Idx) k = ix2 r k :=
    funext fun a => Fin.ext (by match a with | ⟨0, _⟩ => rfl | ⟨1, _⟩ => rfl)
  have er : ridx_main_v40 (ix2 r e : S8192x128.Idx) k = ix2 k e :=
    funext fun a => Fin.ext (by match a with | ⟨0, _⟩ => rfl | ⟨1, _⟩ => rfl)
  rw [el, er, scaled_adj]

/-- The reference's result array is `Spec.out` of its adjacency stage and its float arguments. -/
theorem ref_out (x0 : (⟨S8192x128, .f32⟩ : BufTy).Contents (Elt Ideal)) (x1 : (⟨S2x262144, .i32⟩ : BufTy).Contents (Elt Ideal))
    (x2 : (⟨S128x128, .f32⟩ : BufTy).Contents (Elt Ideal)) (x3 : (⟨S128, .f32⟩ : BufTy).Contents (Elt Ideal)) :
    val_main_v45 (F := Ideal) x0 x1 x2 x3 = Cert.Spec.out (val_main_v26 (F := Ideal) x1) x0 x2 x3 := by
  funext i
  obtain ⟨r, c, rfl⟩ : ∃ (r : Fin 8192) (c : Fin 128), i = ix2 r c := ⟨i 0, i 1, eq_ix2 i⟩
  have eb : idx_main_v43 (idx_main_v44 (ix2 r c : S8192x128.Idx)) = ix1 c :=
    funext fun a => Fin.ext (by match a with | ⟨0, _⟩ => rfl)
  rw [val_main_v45_apply, val_main_v42_apply, val_main_v44_apply, val_main_v43_apply, eb]
  show (∑ k : Fin 128, _) + _
    = (∑ e : Fin 128, Cert.Spec.agg (val_main_v26 (F := Ideal) x1) x0 r e * x2 (ix2 c e)) + x3 (ix1 c)
  refine congrArg (· + x3 (ix1 c)) (Finset.sum_congr rfl fun k _ => ?_)
  have el : lidx_main_v42 (ix2 r c : S8192x128.Idx) k = ix2 r k :=
    funext fun a => Fin.ext (by match a with | ⟨0, _⟩ => rfl | ⟨1, _⟩ => rfl)
  have er : idx_main_v41 (ridx_main_v42 (ix2 r c : S8192x128.Idx) k) = ix2 c k :=
    funext fun a => Fin.ext (by match a with | ⟨0, _⟩ => rfl | ⟨1, _⟩ => rfl)
  rw [el, val_main_v41_apply, er, dot_eq_agg]

end Cert.ReferenceIdeal.RefValue

end
-- ==== Proof.Adj.lean ====
/-
  Both programs build the dense adjacency with the same host operations on the edge list: the two index rows sliced
  out and made non-negative (a negative index has the extent added), joined into index pairs, ones scattered into a
  zero matrix at those pairs, and the identity added. So the kernel program's adjacency buffer, read through its host
  operations, is the reference's adjacency stage of the same edge list. Stated for any float family: nothing here
  computes with a float.
-/
import proofs.«144742_j32641751449979_1_alg».proof.Proof.Gen.KernelIdeal.Launch
import proofs.«144742_j32641751449979_1_alg».proof.Proof.RefReadP
import Idealize.ShloMosaic.Lib.StableHlo.Run

set_option maxRecDepth 16384

noncomputable section

namespace Cert.Bridge

open Idealize.ShloMosaic Idealize.ShloMosaic.TcCoe Idealize.ShloMosaic.StableHlo

variable {F : FTy → Type} [FloatOps F]

set_option maxHeartbeats 4000000 in
/-- The kernel program's adjacency buffer after its first stretch of host operations is the reference's adjacency stage
    of the edge-list argument. -/
theorem adj_eq (X : Valuation Cert.KernelIdeal.τ Cert.KernelIdeal.sig (Elt F)) :
    (StableHlo.after (Cert.KernelIdeal.Gen.hostOps0 (F := F)) X (Proc.devRef .tc Cert.KernelIdeal.main_v26) : Cert.KernelIdeal.S8192x8192.Idx → F .f32)
      = Cert.ReferenceIdeal.Read.val_main_v26 (F := F) (X (Proc.devRef .tc Cert.KernelIdeal.main_arg1)) := by
  simp only [Cert.ReferenceIdeal.Read.val_main_cst, Cert.ReferenceIdeal.Read.val_main_v0, Cert.ReferenceIdeal.Read.val_main_v1, Cert.ReferenceIdeal.Read.val_main_v2, Cert.ReferenceIdeal.Read.val_main_v3, Cert.ReferenceIdeal.Read.val_main_v4, Cert.ReferenceIdeal.Read.val_main_c, Cert.ReferenceIdeal.Read.val_main_v5, Cert.ReferenceIdeal.Read.val_main_v6, Cert.ReferenceIdeal.Read.val_main_c_0, Cert.ReferenceIdeal.Read.val_main_v7, Cert.ReferenceIdeal.Read.val_main_v8, Cert.ReferenceIdeal.Read.val_main_v9, Cert.ReferenceIdeal.Read.val_main_c_1, Cert.ReferenceIdeal.Read.val_main_v10, Cert.ReferenceIdeal.Read.val_main_v11, Cert.ReferenceIdeal.Read.val_main_c_2, Cert.ReferenceIdeal.Read.val_main_v12, Cert.ReferenceIdeal.Read.val_main_v13, Cert.ReferenceIdeal.Read.val_main_v14, Cert.ReferenceIdeal.Read.val_main_v15, Cert.ReferenceIdeal.Read.val_main_v16, Cert.ReferenceIdeal.Read.val_main_v17, Cert.ReferenceIdeal.Read.val_main_cst_3, Cert.ReferenceIdeal.Read.val_main_v18, Cert.ReferenceIdeal.Read.val_main_v19, Cert.ReferenceIdeal.Read.val_main_v20, Cert.ReferenceIdeal.Read.val_main_v21, Cert.ReferenceIdeal.Read.val_main_c_4, Cert.ReferenceIdeal.Read.val_main_v22, Cert.ReferenceIdeal.Read.val_main_v23, Cert.ReferenceIdeal.Read.val_main_v24, Cert.ReferenceIdeal.Read.val_main_v25, Cert.ReferenceIdeal.Read.val_main_v26]
  after_results
  rfl

end Cert.Bridge

end
-- ==== Proof.Host.lean ====
/-
  What the three short stretches of host operations between the two regions put in the arrays the aggregation kernel
  reads, at the ideal values: the adjacency and the features are as they were; the column of row factors is, entry by
  entry, one over the square root of the degree the first region left (zero where the degree is not positive); the row
  of column factors is the same numbers laid along a row; the weight is read transposed; the bias is read as a row.
-/
import proofs.«144742_j32641751449979_1_alg».proof.Proof.KI.Run
import proofs.«144742_j32641751449979_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx
open Idealize.ShloMosaic.Pipeline (Dat Cfg Window)
open scoped BigOperators
open Idealize.ShloMosaic.StableHlo

variable (m : (ℓ : Loc nD τ sig) → Buf (Elt Ideal) ℓ) (c : Dev nD)

/-- The adjacency the host operations build, the launch's float arguments, at their literal types. -/
abbrev adjK : S8192x8192.Idx → EReal := Frame.V1 (F := Ideal) m c main_v26
abbrev featK : S8192x128.Idx → EReal := m ((c.tc : Thread nD τ).loc main_arg0)
abbrev weightK : S128x128.Idx → EReal := m ((c.tc : Thread nD τ).loc main_arg2)
abbrev biasK : S128.Idx → EReal := m ((c.tc : Thread nD τ).loc main_arg3)
/-- The degree array the first region leaves. -/
abbrev degK : S8192x1.Idx → EReal := (dat0 (F := Ideal) (Frame.V1 (F := Ideal) m) c).arrAt 1 cfg0.N
/-- The arrays the second region is entered with. -/
abbrev adj5 : S8192x8192.Idx → EReal := Frame.V5 (F := Ideal) m c main_v26
abbrev feat5 : S8192x128.Idx → EReal := Frame.V5 (F := Ideal) m c main_arg0
abbrev rowf5 : S8192x1.Idx → EReal := Frame.V5 (F := Ideal) m c main_v33
abbrev colf5 : S1x8192.Idx → EReal := Frame.V5 (F := Ideal) m c main_v34
abbrev wt5 : S128x128.Idx → EReal := Frame.V5 (F := Ideal) m c main_v35
abbrev bias5 : S1x128.Idx → EReal := Frame.V5 (F := Ideal) m c main_v36

/-- The adjacency is an input window of the first region and no later stretch writes it. -/
theorem adj5_eq : adj5 m c = adjK m c :=
  calc (W5 (F := Ideal) m c (Proc.devRef .tc main_v26) : S8192x8192.Idx → EReal)
    _ = W4 m c (Proc.devRef .tc main_v26) := StableHlo.after_of_writes_sub hostOps1_2 _ hostOps1_2_writes (show main_v26 ∉ hostOps1_2_W by decide)
    _ = W3 m c (Proc.devRef .tc main_v26) := StableHlo.after_of_writes_sub hostOps1_1 _ hostOps1_1_writes (show main_v26 ∉ hostOps1_1_W by decide)
    _ = W2 m c (Proc.devRef .tc main_v26) := StableHlo.after_of_writes_sub hostOps1 _ hostOps1_writes (show main_v26 ∉ hostOps1_W by decide)
    _ = W1 m c (Proc.devRef .tc main_v26) := (W2_arr m c 0).trans (((dat0 (Frame.V1 m) c).arrAt_in 0 rfl _).trans (A_eq0 (Frame.V1 m) c 0))

theorem feat5_eq : feat5 m c = featK m c :=
  W5_kept m c main_arg0 (by decide) (by decide) (by decide) (by decide) (by decide)

/-- The degree array the second stretch reads is what the first region left. -/
theorem degK_eq : (W2 (F := Ideal) m c (Proc.devRef .tc main_v27) : S8192x1.Idx → EReal) = degK m c :=
  W2_arr m c 1

/-- The host's compare, square root, quotient and `where` on a whole column. -/
def dinvCol (d : S8192x1.Idx → EReal) : S8192x1.Idx → EReal :=
  select (cmpf (F := Ideal) .ogt d (broadcastInDim S8192x1 ![] bcast_S_S8192x1 (constant (F := Ideal) S_ .f32 0x00000000#32)))
    (Host.divf (F := Ideal) (broadcastInDim S8192x1 ![] bcast_S_S8192x1 (constant (F := Ideal) S_ .f32 0x3F800000#32)) (Host.sqrt (F := Ideal) d))
    (broadcastInDim S8192x1 ![] bcast_S_S8192x1 (id (constant (F := Ideal) S_ .f32 0x00000000#32)))

theorem dinvCol_apply (d : S8192x1.Idx → EReal) (i : S8192x1.Idx) : dinvCol d i = Cert.Spec.dinv (d i) := rfl

theorem rowf5_eq : rowf5 m c = dinvCol (degK m c) := by
  rw [← degK_eq]
  show (W5 (F := Ideal) m c (Proc.devRef .tc main_v33) : S8192x1.Idx → EReal) = _
  rw [show W5 (F := Ideal) m c (Proc.devRef .tc main_v33) = W4 m c (Proc.devRef .tc main_v33) from
    StableHlo.after_of_writes_sub hostOps1_2 _ hostOps1_2_writes (show main_v33 ∉ hostOps1_2_W by decide)]
  show StableHlo.after hostOps1_1 (StableHlo.after hostOps1 (W2 (F := Ideal) m c)) (Proc.devRef .tc main_v33) = _
  generalize W2 (F := Ideal) m c = X
  unfold dinvCol
  after_results_simp <;> (try simp only [TRef.ofBuf, TRef.toBuf, cast_eq]) <;> rfl

/-- A float argument no host stretch writes holds its launch contents before the last host stretch. -/
theorem W4_kept (b : Ref sig .tc) (h0 : b ∉ hostOps0_W) (h1 : b ∉ hostOps1_W) (h2 : b ∉ hostOps1_1_W)
    (hb : ∀ w, Pipeline.arrRef spec0 w ≠ b) : W4 (F := Ideal) m c (Proc.devRef .tc b) = m ((c : Thread nD τ).loc b) :=
  calc W4 (F := Ideal) m c (Proc.devRef .tc b)
    _ = W3 m c (Proc.devRef .tc b) := StableHlo.after_of_writes_sub hostOps1_1 _ hostOps1_1_writes h2
    _ = W2 m c (Proc.devRef .tc b) := StableHlo.after_of_writes_sub hostOps1 _ hostOps1_writes h1
    _ = W1 m c (Proc.devRef .tc b) := W2_of_ne m c b hb
    _ = W0 m c (Proc.devRef .tc b) := StableHlo.after_of_writes_sub hostOps0 _ hostOps0_writes h0
    _ = m ((c : Thread nD τ).loc b) := rfl

/-- The row of column factors is the column of row factors reshaped: entry `(0, J)` is entry `(J, 0)`. -/
theorem colf5_apply (J : Fin 8192) : colf5 m c (ix2 (0 : Fin 1) J) = rowf5 m c (ix2 J (0 : Fin 1)) := by
  have hr : rowf5 m c = (W4 (F := Ideal) m c (Proc.devRef .tc main_v33) : S8192x1.Idx → EReal) :=
    StableHlo.after_of_writes_sub hostOps1_2 _ hostOps1_2_writes (show main_v33 ∉ hostOps1_2_W by decide)
  rw [hr]
  show StableHlo.after hostOps1_2 (W4 (F := Ideal) m c) (Proc.devRef .tc main_v34) (ix2 (0 : Fin 1) J) = _
  generalize W4 (F := Ideal) m c = X
  have e : (StableHlo.after hostOps1_2 X (Proc.devRef .tc main_v34) : S1x8192.Idx → EReal)
      = shapeCast S1x8192 (X (Proc.devRef .tc main_v33) : S8192x1.Idx → EReal) shapeCasts_S8192x1_S1x8192 := by
    after_results <;> rfl
  rw [e]
  exact shapeCast_apply _ _ _ _ (by
    show (S8192x1.rowMajor (ix2 J (0 : Fin 1))).val = (S1x8192.rowMajor (ix2 (0 : Fin 1) J)).val
    rw [Shape.rowMajor_val_two, Shape.rowMajor_val_two]; simp)

/-- The weight is read transposed. -/
theorem wt5_apply (e cc : Fin 128) : wt5 m c (ix2 e cc) = weightK m c (ix2 cc e) := by
  have hk : (W4 (F := Ideal) m c (Proc.devRef .tc main_arg2) : S128x128.Idx → EReal) = weightK m c :=
    W4_kept m c main_arg2 (by decide) (by decide) (by decide) (by decide)
  rw [← hk]
  show StableHlo.after hostOps1_2 (W4 (F := Ideal) m c) (Proc.devRef .tc main_v35) (ix2 e cc) = _
  generalize W4 (F := Ideal) m c = X
  have e' : (StableHlo.after hostOps1_2 X (Proc.devRef .tc main_v35) : S128x128.Idx → EReal)
      = transpose S128x128 [1, 0] (X (Proc.devRef .tc main_arg2) : S128x128.Idx → EReal) transposes_S128x128_S128x128_1_0 := by
    after_results <;> rfl
  rw [e']
  exact transpose_ix2_apply _ _ e cc

/-- The bias is read as a row. -/
theorem bias5_apply (cc : Fin 128) : bias5 m c (ix2 (0 : Fin 1) cc) = biasK m c (ix1 cc) := by
  have hk : (W4 (F := Ideal) m c (Proc.devRef .tc main_arg3) : S128.Idx → EReal) = biasK m c :=
    W4_kept m c main_arg3 (by decide) (by decide) (by decide) (by decide)
  rw [← hk]
  show StableHlo.after hostOps1_2 (W4 (F := Ideal) m c) (Proc.devRef .tc main_v36) (ix2 (0 : Fin 1) cc) = _
  generalize W4 (F := Ideal) m c = X
  have e' : (StableHlo.after hostOps1_2 X (Proc.devRef .tc main_v36) : S1x128.Idx → EReal)
      = shapeCast S1x128 (X (Proc.devRef .tc main_arg3) : S128.Idx → EReal) shapeCasts_S128_S1x128 := by
    after_results <;> rfl
  rw [e']
  exact shapeCast_apply _ _ _ _ (by
    show (S128.rowMajor (ix1 cc)).val = (S1x128.rowMajor (ix2 (0 : Fin 1) cc)).val
    rw [Shape.rowMajor_val_one, Shape.rowMajor_val_two]; simp)

end Cert.KernelIdeal.Val

end
-- ==== Proof.LibSumBlocks.lean ====
import Mathlib.Data.Fintype.BigOperators
import Mathlib.Logic.Equiv.Fin.Basic

/-! # A sum over consecutive blocks

A sum over `A * B` consecutive indices, cut into `A` blocks of `B`: entry `r` of block `t` is index `B * t + r`. -/

namespace Cert.LibSumBlocks

open scoped BigOperators

/-- Entry `r` of block `t`, of `A` blocks of `B` entries each, is below `A * B`. -/
theorem block_lt {A B N : ℕ} (h : A * B = N) (t : Fin A) (r : Fin B) : B * t.val + r.val < N := by
  have h1 : B * (t.val + 1) ≤ B * A := Nat.mul_le_mul_left _ t.isLt
  have h2 : B * (t.val + 1) = B * t.val + B := Nat.mul_succ _ _
  have h3 := r.isLt
  rw [← h, Nat.mul_comm A B]
  omega

/-- THE SUM BY BLOCKS: over `N = A * B` indices, the sum over the `A` blocks of the sum over the `B` entries inside
    each block, entry `r` of block `t` being index `B * t + r`, is the sum over all `N` indices, in any additive
    commutative monoid. -/
theorem sum_blocks {M : Type*} [AddCommMonoid M] {A B N : ℕ} (h : A * B = N) (f : Fin N → M) :
    ∑ t : Fin A, ∑ r : Fin B, f ⟨B * t.val + r.val, block_lt h t r⟩ = ∑ n : Fin N, f n := by
  subst h
  rw [← Fintype.sum_prod_type' (fun (t : Fin A) (r : Fin B) => f ⟨B * t.val + r.val, block_lt rfl t r⟩)]
  refine Fintype.sum_equiv finProdFinEquiv _ _ fun x => ?_
  refine congrArg f (Fin.ext ?_)
  show B * x.1.val + x.2.val = x.2.val + B * x.1.val
  exact Nat.add_comm _ _

end Cert.LibSumBlocks
-- ==== Proof.Val0.lean ====
/-
  What the degree kernel's region leaves in its output array, at the ideal values: entry `r` is the sum of row `r`
  of the adjacency the region was entered with. Row `r` lies in the row block `r / 1024`; along that block's eight
  grid points the accumulator starts from zero and adds, point by point, the sum of the row's 1024 entries inside the
  point's column block; the last of the eight points stores the total, and that block is what is written back.
-/
import proofs.«144742_j32641751449979_1_alg».proof.Proof.KI.Dat0
import proofs.«144742_j32641751449979_1_alg».proof.Proof.LibSumBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx
open Idealize.ShloMosaic.Pipeline (Dat Cfg Window)
open scoped BigOperators

section Pieces
variable {F : FTy → Type} [FloatOps F]

theorem deg_hz : (![0, 0] : Fin 2 → Nat) = fun _ => 0 := funext fun a => by fin_cases a <;> rfl

/-- A resetting point leaves in the accumulator the row sums of its block added to the zero block. -/
theorem deg_soutA (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : cond0_0 i) (hc1 : ¬cond0_1 i)
    (x0 : Vec F S1024x1024 .f32) :
    sout0_A c i arg2 harg2 arg3 harg3 arg4 harg4 hc0 hc1 x0 = k0_pay2 (k0_pay1 (F := F)) x0 := by
  unfold sout0_A
  rw [View.read_writes_eq_canon _ _ _ (scover0_A c i arg2 harg2 arg3 harg3 arg4 harg4 hc0 hc1 x0)]
  unfold kernelRun0_A
  dsimp only
  sl_unfold_words
  rw [View.canon_cons_unit_zero (S := S1024x1) deg_hz, View.readCov_unit_zero (S := S1024x1) _ deg_hz]
  simp only [View.readAt_eq_ld, harg2.read_unread, View.ld_unit_zero (S := S1024x1024) deg_hz]

/-- A middle point leaves in the accumulator the row sums of its block added to what the point before left. -/
theorem deg_soutB (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : ¬cond0_1 i)
    (x0 : Vec F S1024x1024 .f32) (xs0 : Vec F S1024x1 .f32) :
    sout0_B c i arg2 harg2 arg3 harg3 arg4 harg4 hc0 hc1 x0 xs0 = k0_pay2 xs0 x0 := by
  unfold sout0_B
  rw [View.read_writes_eq_canon _ _ _ (scover0_B c i arg2 harg2 arg3 harg3 arg4 harg4 hc0 hc1 x0 xs0)]
  unfold kernelRun0_B
  dsimp only
  sl_unfold_words
  rw [View.canon_unit_zero (S := S1024x1) deg_hz]
  simp only [View.readAt_eq_ld, harg2.read_unread, harg4.read_unread, View.ld_unit_zero (S := S1024x1024) deg_hz, View.ld_unit_zero (S := S1024x1) deg_hz]

/-- The last point of a row of blocks stores, as the output block, the row sums of its block added to what the
    point before left. -/
theorem deg_outC (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x1024 .f32) (xs0 : Vec F S1024x1 .f32) :
    out0_C c i arg2 harg2 arg3 harg3 arg4 harg4 hc0 hc1 x0 xs0 = k0_pay2 xs0 x0 := by
  unfold out0_C
  rw [View.read_writes_eq_canon _ _ _ (cover0_C c i arg2 harg2 arg3 harg3 arg4 harg4 hc0 hc1 x0 xs0)]
  unfold kernelRun0_C
  dsimp only
  sl_unfold_words
  rw [View.canon_unit_zero (S := S1024x1) deg_hz, View.readCov_unit_zero (S := S1024x1) _ deg_hz]
  simp only [View.readAt_eq_ld, harg2.read_unread, harg4.read_unread, View.ld_unit_zero (S := S1024x1024) deg_hz, View.ld_unit_zero (S := S1024x1) deg_hz]

/-- The last point of a row of blocks leaves in the accumulator what it stores as the output block. -/
theorem deg_soutC (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1 .f32) (harg4 : arg4.IsWhole) (hc0 : ¬cond0_0 i) (hc1 : cond0_1 i)
    (x0 : Vec F S1024x1024 .f32) (xs0 : Vec F S1024x1 .f32) :
    sout0_C c i arg2 harg2 arg3 harg3 arg4 harg4 hc0 hc1 x0 xs0 = k0_pay2 xs0 x0 := by
  unfold sout0_C
  rw [View.read_writes_eq_canon _ _ _ (scover0_C c i arg2 harg2 arg3 harg3 arg4 harg4 hc0 hc1 x0 xs0)]
  unfold kernelRun0_C
  dsimp only
  sl_unfold_words
  rw [View.canon_unit_zero (S := S1024x1) deg_hz]
  simp only [View.readAt_eq_ld, harg2.read_unread, harg4.read_unread, View.ld_unit_zero (S := S1024x1024) deg_hz, View.ld_unit_zero (S := S1024x1) deg_hz]

end Pieces

section Payload

/-- The zero block the reset stores, read at an entry. -/
theorem deg_zero_apply (p : Fin 1024) (q : Fin 1) : (k0_pay1 (F := Ideal)) (ix2 p q) = 0 := by
  unfold k0_pay1
  refine (congrFun (shapeCast_self _ _) (ix2 p q)).trans ?_
  exact Ideal.ofBits_zero_f32

/-- The index a row's reduction reads at lane `k`. -/
theorem deg_lift_ix (h : S1024x1024.Reduces [1] S1024) (p k : Fin 1024) : h.lift (ix1 p) k = ix2 p k := by
  funext c
  apply Fin.ext
  match c with
  | ⟨0, _⟩ => rfl
  | ⟨1, _⟩ => rfl

/-- The update read at an entry: what the accumulator held there plus the sum of the block's row. -/
theorem deg_update_apply (v3 : Vec Ideal S1024x1 .f32) (v4 : Vec Ideal S1024x1024 .f32) (p : Fin 1024) (q : Fin 1) :
    k0_pay2 v3 v4 (ix2 p q) = v3 (ix2 p q) + ∑ j : Fin 1024, v4 (ix2 p j) := by
  unfold k0_pay2
  refine (congrFun (shapeCast_self _ _) (ix2 p q)).trans ?_
  refine (addf_apply _ _ _).trans ?_
  refine congrArg (fun z => v3 (ix2 p q) + z) ?_
  refine (shapeCast_apply _ _ (ix2 p q) (ix1 p) ?_).trans ?_
  · rw [Shape.rowMajor_val_two, Shape.rowMajor_val_one]
    show p.val = p.val * 1 + q.val
    omega
  refine (Ideal.multiReduction_add_single _ 0x00000000#32 reduces_S1024x1024_S1024 (.inl rfl) rfl (ix1 p)).trans ?_
  refine Finset.sum_congr rfl fun k _ => ?_
  refine (congrFun (shapeCast_self v4 _) _).trans ?_
  exact congrArg v4 (deg_lift_ix _ p k)

end Payload

section Points
variable {F : FTy → Type} [FloatOps F]
variable (W : (c : Dev nD) → (b : Ref sig .tc) → Buf (Elt F) ((c : Thread nD τ).loc b))

/-- The adjacency window's block at a point, at its literal type. -/
abbrev deg_xblk (c : Dev nD) (t : Fin cfg0.N) : Vec F S1024x1024 .f32 := iblk0 W c 0 t
/-- The accumulator after a point, at its literal type. -/
abbrev deg_accAfter (c : Dev nD) (n : ℕ) (hn : n < cfg0.N) : Vec F S1024x1 .f32 := (outsAt0 W c n hn).2
/-- The output window's staging buffer after a point, at its literal type. -/
abbrev deg_outAfter (c : Dev nD) (n : ℕ) (hn : n < cfg0.N) : Vec F S1024x1 .f32 := (outsAt0 W c n hn).1

theorem deg_acc_A (c : Dev nD) (t : Fin cfg0.N) (h0 : t.val % 8 = 0) :
    deg_accAfter W c t.val t.isLt = k0_pay2 (k0_pay1 (F := F)) (deg_xblk W c t) := by
  show (outsAt0 W c t.val t.isLt).2 = _
  rw [outsAt0_A W c t h0]
  exact deg_soutA (F := F) c (grid0.coords t) (ms0_0 t) (hs0_0 t) (ms0_1 t) (hs0_1 t) scM0 (Memref.isWhole_whole _) ((hcond0_0 t).mpr h0) (fun h => not7_of_0 h0 ((hcond0_1 t).mp h)) (iblk0 W c 0 t)

theorem deg_acc_B (c : Dev nD) (t : Fin cfg0.N) (h0 : ¬t.val % 8 = 0) (h1 : ¬t.val % 8 = 7) :
    deg_accAfter W c t.val t.isLt = k0_pay2 (deg_accAfter W c (t.val - 1) (Nat.lt_of_le_of_lt (Nat.sub_le _ _) t.isLt)) (deg_xblk W c t) := by
  show (outsAt0 W c t.val t.isLt).2 = _
  rw [outsAt0_B W c t h0 h1]
  exact deg_soutB (F := F) c (grid0.coords t) (ms0_0 t) (hs0_0 t) (ms0_1 t) (hs0_1 t) scM0 (Memref.isWhole_whole _) (fun h => h0 ((hcond0_0 t).mp h)) (fun h => h1 ((hcond0_1 t).mp h)) (iblk0 W c 0 t) (outsAt0 W c (t.val - 1) (Nat.lt_of_le_of_lt (Nat.sub_le _ _) t.isLt)).2

theorem deg_acc_C (c : Dev nD) (t : Fin cfg0.N) (h0 : ¬t.val % 8 = 0) (h1 : t.val % 8 = 7) :
    deg_accAfter W c t.val t.isLt = k0_pay2 (deg_accAfter W c (t.val - 1) (Nat.lt_of_le_of_lt (Nat.sub_le _ _) t.isLt)) (deg_xblk W c t) := by
  show (outsAt0 W c t.val t.isLt).2 = _
  rw [outsAt0_C W c t h0 h1]
  dsimp only
  exact deg_soutC (F := F) c (grid0.coords t) (ms0_0 t) (hs0_0 t) (ms0_1 t) (hs0_1 t) scM0 (Memref.isWhole_whole _) (fun h => h0 ((hcond0_0 t).mp h)) ((hcond0_1 t).mpr h1) (iblk0 W c 0 t) (outsAt0 W c (t.val - 1) (Nat.lt_of_le_of_lt (Nat.sub_le _ _) t.isLt)).2

theorem deg_out_C (c : Dev nD) (t : Fin cfg0.N) (h0 : ¬t.val % 8 = 0) (h1 : t.val % 8 = 7) :
    deg_outAfter W c t.val t.isLt = k0_pay2 (deg_accAfter W c (t.val - 1) (Nat.lt_of_le_of_lt (Nat.sub_le _ _) t.isLt)) (deg_xblk W c t) := by
  show (outsAt0 W c t.val t.isLt).1 = _
  rw [outsAt0_C W c t h0 h1]
  dsimp only
  exact deg_outC (F := F) c (grid0.coords t) (ms0_0 t) (hs0_0 t) (ms0_1 t) (hs0_1 t) scM0 (Memref.isWhole_whole _) (fun h => h0 ((hcond0_0 t).mp h)) ((hcond0_1 t).mpr h1) (iblk0 W c 0 t) (outsAt0 W c (t.val - 1) (Nat.lt_of_le_of_lt (Nat.sub_le _ _) t.isLt)).2

end Points

variable (V : (c : Dev nD) → (b : Ref sig .tc) → Buf (Elt Ideal) ((c : Thread nD τ).loc b))

/-- The adjacency the region is entered with, at its literal type. -/
abbrev adjIn0 (c : Dev nD) : S8192x8192.Idx → EReal := V c main_v26
/-- The degree array the region leaves, at its literal type. -/
abbrev degOut (c : Dev nD) : S8192x1.Idx → EReal := (dat0 (F := Ideal) V c).arrAt 1 cfg0.N

/-- The block indices of the two windows, decided over the grid: point `t` is row block `t / 8`, column block `t % 8`. -/
theorem deg_idx_facts : ∀ t : Fin cfg0.N, win0_0.index t (0 : Fin 2) = t.val / 8 ∧ win0_0.index t (1 : Fin 2) = t.val % 8
    ∧ win0_1.index t (0 : Fin 2) = t.val / 8 ∧ win0_1.index t (1 : Fin 2) = 0 :=
  (by decide +kernel : ∀ t : Fin grid0.N, win0_0.index t (0 : Fin 2) = t.val / 8 ∧ win0_0.index t (1 : Fin 2) = t.val % 8
    ∧ win0_1.index t (0 : Fin 2) = t.val / 8 ∧ win0_1.index t (1 : Fin 2) = 0)

/-- The adjacency the region is entered with, over natural coordinates (zero outside the array). -/
def deg_adjN (c : Dev nD) (r J : ℕ) : EReal :=
  if h : r < 8192 ∧ J < 8192 then (V c main_v26 : S8192x8192.Idx → EReal) (ix2 ⟨r, h.1⟩ ⟨J, h.2⟩) else 0

/-- Entry `(p, j)` of the adjacency block at point `t` is the adjacency at row `1024 (t / 8) + p`, column `1024 (t % 8) + j`. -/
theorem deg_xblk_apply (c : Dev nD) (t : Fin cfg0.N) (p j : Fin 1024) :
    deg_xblk V c t (ix2 p j) = deg_adjN V c (1024 * (t.val / 8) + p.val) (1024 * (t.val % 8) + j.val) := by
  have hN : t.val < 64 := lt_of_lt_of_eq t.isLt N_0
  have hp := p.isLt
  have hj := j.isLt
  obtain ⟨e0, e1, -, -⟩ := deg_idx_facts t
  unfold deg_adjN
  rw [dif_pos ⟨by omega, by omega⟩]
  show iblk0 V c 0 t (ix2 p j) = _
  unfold iblk0
  rw [View.read_apply]
  show V c main_v26 _ = V c main_v26 _
  refine congrArg (V c main_v26) (funext fun a => Fin.ext ?_)
  match a with
  | ⟨0, _⟩ => show win0_0.index t 0 * 1024 + 1 * p.val = 1024 * (t.val / 8) + p.val; rw [e0]; omega
  | ⟨1, _⟩ => show win0_0.index t 1 * 1024 + 1 * j.val = 1024 * (t.val % 8) + j.val; rw [e1]; omega

/-- THE INVARIANT. After point `n` (row block `n / 8`, column block `n % 8`) entry `p` of the accumulator is the sum,
    over the column blocks `0 … n % 8`, of the sums of row `1024 (n / 8) + p` inside each block. -/
theorem deg_acc_inv (c : Dev nD) : ∀ (n : ℕ) (hn : n < cfg0.N) (p : Fin 1024) (e : Fin 1),
    deg_accAfter V c n hn (ix2 p e)
      = ∑ s ∈ Finset.range (n % 8 + 1), ∑ j : Fin 1024, deg_adjN V c (1024 * (n / 8) + p.val) (1024 * s + j.val) := by
  intro n
  induction n using Nat.strong_induction_on with
  | _ n ih =>
    intro hn p e
    by_cases h0 : n % 8 = 0
    · refine (congrFun (deg_acc_A V c ⟨n, hn⟩ h0) (ix2 p e)).trans ?_
      refine (deg_update_apply _ _ p e).trans ?_
      rw [deg_zero_apply, zero_add, h0, Finset.sum_range_one]
      refine Finset.sum_congr rfl fun j _ => ?_
      refine (deg_xblk_apply V c ⟨n, hn⟩ p j).trans ?_
      show deg_adjN V c (1024 * (n / 8) + p.val) (1024 * (n % 8) + j.val) = _
      rw [h0]
    · have hlt : n - 1 < cfg0.N := Nat.lt_of_le_of_lt (Nat.sub_le _ _) hn
      have step : deg_accAfter V c n hn (ix2 p e)
          = deg_accAfter V c (n - 1) hlt (ix2 p e) + ∑ j : Fin 1024, deg_xblk V c ⟨n, hn⟩ (ix2 p j) := by
        by_cases h1 : n % 8 = 7
        · exact (congrFun (deg_acc_C V c ⟨n, hn⟩ h0 h1) (ix2 p e)).trans (deg_update_apply _ _ p e)
        · exact (congrFun (deg_acc_B V c ⟨n, hn⟩ h0 h1) (ix2 p e)).trans (deg_update_apply _ _ p e)
      have e1 : (n - 1) % 8 + 1 = n % 8 := by omega
      have e2 : (n - 1) / 8 = n / 8 := by omega
      rw [step, ih (n - 1) (by omega) hlt p e, e1, e2, Finset.sum_range_succ]
      refine congrArg (fun z => _ + z) ?_
      exact Finset.sum_congr rfl fun j _ => deg_xblk_apply V c ⟨n, hn⟩ p j

/-- At the last point of a row of blocks the stored output block holds, at entry `p`, the sum over all eight column
    blocks of the sums of row `1024 (t / 8) + p` inside each block. -/
theorem deg_out_inv (c : Dev nD) (t : Fin cfg0.N) (h7 : t.val % 8 = 7) (p : Fin 1024) (e : Fin 1) :
    deg_outAfter V c t.val t.isLt (ix2 p e)
      = ∑ s ∈ Finset.range 8, ∑ j : Fin 1024, deg_adjN V c (1024 * (t.val / 8) + p.val) (1024 * s + j.val) := by
  have h0 : ¬ t.val % 8 = 0 := by omega
  have e1 : (t.val - 1) % 8 + 1 = 7 := by omega
  have e2 : (t.val - 1) / 8 = t.val / 8 := by omega
  refine (congrFun (deg_out_C V c t h0 h7) (ix2 p e)).trans ?_
  refine (deg_update_apply _ _ p e).trans ?_
  rw [deg_acc_inv V c (t.val - 1) (Nat.lt_of_le_of_lt (Nat.sub_le _ _) t.isLt) p e, e1, e2, Finset.sum_range_succ _ 7]
  refine congrArg (fun z => _ + z) ?_
  refine Finset.sum_congr rfl fun j _ => ?_
  refine (deg_xblk_apply V c t p j).trans ?_
  rw [h7]

/-- The degree array as one function of the adjacency: entry `i` is the sum, over the eight column blocks, of the sums
    of row `i 0` inside each block. -/
def degG (c : Dev nD) : S8192x1.Idx → EReal :=
  fun i => ∑ s ∈ Finset.range 8, ∑ j : Fin 1024, deg_adjN V c (i 0).val (1024 * s + j.val)

/-- What a point that writes the output window back writes is its block of `degG`. -/
theorem deg_flushed_eq (c : Dev nD) (t : Fin cfg0.N) (hf : (cfg0.win 1).flush t = true) :
    (dat0 (F := Ideal) V c).flushed 1 t = ((cfg0.win 1).blk t).view.read (Elt Ideal) (degG V c) := by
  have h7 : t.val % 8 = 7 := (flush0_1 t).mp hf
  show (cfg0.win 1).cut (grid0.coords t) ((dat0 V c).after 1 t) = _
  rw [after0_1]
  funext y
  rw [View.read_apply]
  obtain ⟨p, e, rfl⟩ : ∃ (p : Fin 1024) (e : Fin 1), y = ix2 p e := ⟨y 0, y 1, eq_ix2 y⟩
  show deg_outAfter V c t.val t.isLt (ix2 p e) = degG V c (((cfg0.win 1).blk t).view.emb (ix2 p e))
  rw [deg_out_inv V c t h7 p e]
  unfold degG
  have hrow : ((((cfg0.win 1).blk t).view.emb (ix2 p e)) 0).val = 1024 * (t.val / 8) + p.val := by
    show win0_1.index t 0 * 1024 + 1 * p.val = _
    rw [(deg_idx_facts t).2.2.1]; omega
  rw [hrow]

/-- Row `r` lies in the output block of the last point of its row of blocks. -/
theorem deg_row_mem (r : Fin 8192) (t : Fin cfg0.N) (ht : t.val = 8 * (r.val / 1024) + 7) :
    (ix2 r (0 : Fin 1) : S8192x1.Idx) ∈ ((cfg0.win 1).blk t).view.set := by
  have hr := r.isLt
  obtain ⟨-, -, e2, e3⟩ := deg_idx_facts t
  show (ix2 r (0 : Fin 1) : S8192x1.Idx) ∈ ((View.whole main_v27).slice (win0_1.rect t)).set
  rw [View.set_slice_whole, Rect.mem_set_unit]
  intro a
  match a with
  | ⟨0, _⟩ =>
    show win0_1.index t 0 * 1024 ≤ r.val ∧ r.val < win0_1.index t 0 * 1024 + 1024
    rw [e2, ht]; omega
  | ⟨1, _⟩ =>
    show win0_1.index t 1 * 1 ≤ 0 ∧ 0 < win0_1.index t 1 * 1 + 1
    rw [e3]; omega

/-- The degree array after the region: each entry is its adjacency row's sum. -/
theorem deg_arr (c : Dev nD) (r : Fin 8192) :
    degOut V c (ix2 r (0 : Fin 1)) = ∑ J : Fin 8192, adjIn0 V c (ix2 r J) := by
  have hr := r.isLt
  have hN : cfg0.N = 64 := N_0
  have htlt : 8 * (r.val / 1024) + 7 < cfg0.N := by omega
  have hf : (cfg0.win 1).flush ⟨8 * (r.val / 1024) + 7, htlt⟩ = true :=
    (flush0_1 ⟨8 * (r.val / 1024) + 7, htlt⟩).mpr (by show (8 * (r.val / 1024) + 7) % 8 = 7; omega)
  refine ((dat0 (F := Ideal) V c).arrAt_apply_of_mem 1 (degG V c) (deg_flushed_eq V c) cfg0.N
    ⟨8 * (r.val / 1024) + 7, htlt⟩ (ix2 r (0 : Fin 1)) htlt hf (deg_row_mem r _ rfl)).trans ?_
  show ∑ s ∈ Finset.range 8, ∑ j : Fin 1024, deg_adjN V c r.val (1024 * s + j.val) = _
  rw [Finset.sum_range (fun s => ∑ j : Fin 1024, deg_adjN V c r.val (1024 * s + j.val)),
    ← Cert.LibSumBlocks.sum_blocks (A := 8) (B := 1024) (N := 8192) rfl (fun J => adjIn0 V c (ix2 r J))]
  refine Finset.sum_congr rfl fun s _ => Finset.sum_congr rfl fun j _ => ?_
  have hs := s.isLt
  have hj := j.isLt
  unfold deg_adjN
  rw [dif_pos ⟨hr, by omega⟩]

end Cert.KernelIdeal.Val

end
-- ==== Proof.Val1.lean ====
/-
  What the aggregation kernel's region leaves in its output array, at the ideal values, in terms of the arrays the
  region was entered with: the adjacency `A`, the features `x`, the column of row factors, the row of column factors,
  the transposed weight and the bias row. Entry `(r, c)` is the sum over features `e` of the aggregate
  `Σ_J ((A r J · rowf r) · colf J) · x J e` times the transposed weight's `(e, c)`, plus the bias at `c`. Row `r`
  lies in the row block `r / 1024`; along that block's eight grid points the accumulator starts from zero and adds the
  partial aggregate over the point's 1024 columns; the last point multiplies the total with the transposed weight,
  adds the bias and stores the block, which is what is written back.
  The proof: each control case of the body leaves the payloads of the blocks it loads (the adding payload over the
  zero block at a first point, over the previous accumulator elsewhere; the finishing payload of the accumulator in the
  output block at a last point). Read at an entry over the extended reals, the adding payload adds to the accumulator's
  `(p, e)` the sum over the block's 1024 columns; a block's entry is the array's entry at block index × block size + the
  coordinate inside the block; so after point `n` the accumulator holds the contributions of column blocks `0 … n % 8` to
  row `1024 (n / 8) + p` (induction on the point), after the eighth all 8192 columns (a sum over 8 blocks of 1024 is the
  sum over 8192). The last point of row block `r / 1024` is the one point that writes row `r` back.
-/
import proofs.«144742_j32641751449979_1_alg».proof.Proof.KI.Dat1
import proofs.«144742_j32641751449979_1_alg».proof.Proof.LibSumBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-- The arrays the region is entered with, and the one it leaves, at their literal types. -/
abbrev adjIn1 (c : Dev nD) : S8192x8192.Idx → EReal := V c main_v26
abbrev featIn (c : Dev nD) : S8192x128.Idx → EReal := V c main_arg0
abbrev rowfIn (c : Dev nD) : S8192x1.Idx → EReal := V c main_v33
abbrev colfIn (c : Dev nD) : S1x8192.Idx → EReal := V c main_v34
abbrev wtIn (c : Dev nD) : S128x128.Idx → EReal := V c main_v35
abbrev biasIn (c : Dev nD) : S1x128.Idx → EReal := V c main_v36
abbrev resOut (c : Dev nD) : S8192x128.Idx → EReal := (dat1 (F := Ideal) V c).arrAt 6 cfg1.N

/-! ## What each control case leaves, as the payloads of the blocks it loads -/

section Pieces
variable {F : FTy → Type} [FloatOps F]

/-- The zero offsets of every load and store of the body, however they are spelt. -/
theorem hz1 : (![0, 0] : Fin 2 → Nat) = fun _ => 0 := funext fun a => by fin_cases a <;> rfl

/-- First point of a row of blocks: the accumulator is zeroed, read back, and the point's product is added to it. -/
theorem sout1_A_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i) (x0 : Vec F S1024x1024 .f32) (x1 : Vec F S1024x128 .f32) (x2 : Vec F S1024x1 .f32) (x3 : Vec F S1x1024 .f32) (x4 : Vec F S128x128 .f32) (x5 : Vec F S1x128 .f32) :
    sout1_A c i arg2 harg2 arg3 harg3 arg4 harg4 arg5 harg5 arg6 harg6 arg7 harg7 arg8 harg8 arg9 harg9 hc0 hc1 x0 x1 x2 x3 x4 x5 = k1_pay2 x0 x2 x3 x1 (k1_pay1 (F := F)) := by
  unfold sout1_A
  rw [View.read_writes_eq_canon _ _ _ (scover1_A c i arg2 harg2 arg3 harg3 arg4 harg4 arg5 harg5 arg6 harg6 arg7 harg7 arg8 harg8 arg9 harg9 hc0 hc1 x0 x1 x2 x3 x4 x5)]
  unfold kernelRun1_A
  dsimp only
  sl_unfold_words
  rw [View.canon_cons_unit_zero (S := S1024x128) hz1, View.readCov_unit_zero (S := S1024x128) _ hz1]
  simp only [View.readAt_eq_ld, harg2.read_unread, harg3.read_unread, harg4.read_unread, harg5.read_unread, harg6.read_unread, harg7.read_unread, harg8.read_unread, harg9.read_unread, View.ld_unit_zero (S := S1024x1024) hz1, View.ld_unit_zero (S := S1024x128) hz1, View.ld_unit_zero (S := S1024x1) hz1, View.ld_unit_zero (S := S1x1024) hz1, View.ld_unit_zero (S := S128x128) hz1, View.ld_unit_zero (S := S1x128) hz1]

/-- A middle point: the point's product is added to what the point before left. -/
theorem sout1_B_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i) (x0 : Vec F S1024x1024 .f32) (x1 : Vec F S1024x128 .f32) (x2 : Vec F S1024x1 .f32) (x3 : Vec F S1x1024 .f32) (x4 : Vec F S128x128 .f32) (x5 : Vec F S1x128 .f32) (xs0 : Vec F S1024x128 .f32) :
    sout1_B c i arg2 harg2 arg3 harg3 arg4 harg4 arg5 harg5 arg6 harg6 arg7 harg7 arg8 harg8 arg9 harg9 hc0 hc1 x0 x1 x2 x3 x4 x5 xs0 = k1_pay2 x0 x2 x3 x1 xs0 := by
  unfold sout1_B
  rw [View.read_writes_eq_canon _ _ _ (scover1_B c i arg2 harg2 arg3 harg3 arg4 harg4 arg5 harg5 arg6 harg6 arg7 harg7 arg8 harg8 arg9 harg9 hc0 hc1 x0 x1 x2 x3 x4 x5 xs0)]
  unfold kernelRun1_B
  dsimp only
  sl_unfold_words
  rw [View.canon_unit_zero (S := S1024x128) hz1]
  simp only [View.readAt_eq_ld, harg2.read_unread, harg3.read_unread, harg4.read_unread, harg5.read_unread, harg6.read_unread, harg7.read_unread, harg8.read_unread, harg9.read_unread, View.ld_unit_zero (S := S1024x1024) hz1, View.ld_unit_zero (S := S1024x128) hz1, View.ld_unit_zero (S := S1024x1) hz1, View.ld_unit_zero (S := S1x1024) hz1, View.ld_unit_zero (S := S128x128) hz1, View.ld_unit_zero (S := S1x128) hz1]

/-- Last point of a row of blocks, the accumulator: as at a middle point. -/
theorem sout1_C_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i) (x0 : Vec F S1024x1024 .f32) (x1 : Vec F S1024x128 .f32) (x2 : Vec F S1024x1 .f32) (x3 : Vec F S1x1024 .f32) (x4 : Vec F S128x128 .f32) (x5 : Vec F S1x128 .f32) (xs0 : Vec F S1024x128 .f32) :
    sout1_C c i arg2 harg2 arg3 harg3 arg4 harg4 arg5 harg5 arg6 harg6 arg7 harg7 arg8 harg8 arg9 harg9 hc0 hc1 x0 x1 x2 x3 x4 x5 xs0 = k1_pay2 x0 x2 x3 x1 xs0 := by
  unfold sout1_C
  rw [View.read_writes_eq_canon _ _ _ (scover1_C c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero (S := S1024x128) hz1]
  simp only [View.readAt_eq_ld, harg2.read_unread, harg3.read_unread, harg4.read_unread, harg5.read_unread, harg6.read_unread, harg7.read_unread, harg8.read_unread, harg9.read_unread, View.ld_unit_zero (S := S1024x1024) hz1, View.ld_unit_zero (S := S1024x128) hz1, View.ld_unit_zero (S := S1024x1) hz1, View.ld_unit_zero (S := S1x1024) hz1, View.ld_unit_zero (S := S128x128) hz1, View.ld_unit_zero (S := S1x128) hz1]

/-- Last point of a row of blocks, the output block: the finished accumulator times the transposed weight, plus the
    bias row. -/
theorem out1_C_eq (c : Dev nD) (i : grid1.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i) (x0 : Vec F S1024x1024 .f32) (x1 : Vec F S1024x128 .f32) (x2 : Vec F S1024x1 .f32) (x3 : Vec F S1x1024 .f32) (x4 : Vec F S128x128 .f32) (x5 : Vec F S1x128 .f32) (xs0 : Vec F S1024x128 .f32) :
    out1_C c i arg2 harg2 arg3 harg3 arg4 harg4 arg5 harg5 arg6 harg6 arg7 harg7 arg8 harg8 arg9 harg9 hc0 hc1 x0 x1 x2 x3 x4 x5 xs0 = k1_pay3 (k1_pay2 x0 x2 x3 x1 xs0) x4 x5 := by
  unfold out1_C
  rw [View.read_writes_eq_canon _ _ _ (cover1_C c i arg2 harg2 arg3 harg3 arg4 harg4 arg5 harg5 arg6 harg6 arg7 harg7 arg8 harg8 arg9 harg9 hc0 hc1 x0 x1 x2 x3 x4 x5 xs0)]
  unfold kernelRun1_C
  dsimp only
  sl_unfold_words
  rw [View.canon_unit_zero (S := S1024x128) hz1, View.readCov_unit_zero (S := S1024x128) _ hz1]
  simp only [View.readAt_eq_ld, harg2.read_unread, harg3.read_unread, harg4.read_unread, harg5.read_unread, harg6.read_unread, harg7.read_unread, harg8.read_unread, harg9.read_unread, View.ld_unit_zero (S := S1024x1024) hz1, View.ld_unit_zero (S := S1024x128) hz1, View.ld_unit_zero (S := S1024x1) hz1, View.ld_unit_zero (S := S1x1024) hz1, View.ld_unit_zero (S := S128x128) hz1, View.ld_unit_zero (S := S1x128) hz1]

end Pieces

/-! ## The payloads at an entry, over the extended reals -/

section Payloads

/-- The zero block reads zero at every entry. -/
theorem k1_pay1_apply (p : Fin 1024) (q : Fin 128) : (k1_pay1 (F := Ideal)) (ix2 p q) = 0 := by
  unfold k1_pay1
  refine (congrFun (shapeCast_self _ _) (ix2 p q)).trans ?_
  exact Ideal.ofBits_zero_f32

/-- A column of 1024 entries broadcast along 1024 columns reads, at `(p, k)`, the column's entry `p`. -/
theorem colBroadcast1024_apply {α : Type} (v : S1024x1.Idx → α) (h : S1024x1.Broadcasts S1024x1024) (p k : Fin 1024) :
    broadcastTo S1024x1024 v h (ix2 p k) = v (ix2 p (0 : Fin 1)) := by
  refine broadcastTo_apply v h (ix2 p k) (ix2 p (0 : Fin 1)) fun ax => ?_
  match ax with
  | ⟨0, _⟩ => show p.val = if (1024 : ℕ) = 1 then 0 else p.val; rw [if_neg (by decide)]
  | ⟨1, _⟩ => show (0 : ℕ) = if (1 : ℕ) = 1 then 0 else k.val; rw [if_pos rfl]

/-! The two products contract the left operand's columns with the right operand's rows; the operand indices of the
    product at `(p, q)` and contraction coordinate `k` are `(p, k)` and `(k, q)`. -/

theorem lhs_agg_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_agg_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_agg_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_agg_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- The aggregation's product into the zero block: entry `(p, q)` is the sum over the 1024 columns. -/
theorem aggDot_apply (A : FVec Ideal S1024x1024 .bf16) (B : FVec Ideal S1024x128 .bf16) (p : Fin 1024) (q : Fin 128) :
    matmul dot_S1024x1024_S1024x128_S1024x128_1_0_0_1_n_n none A B (constant (F := Ideal) S1024x128 .f32 0x00000000#32) (ix2 p q)
      = ∑ k : Fin 1024, A (ix2 p k) * B (ix2 k q) := by
  refine (Ideal.matmul_constant_zero_apply dot_S1024x1024_S1024x128_S1024x128_1_0_0_1_n_n none A B (ix2 p q)).trans ?_
  rw [← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 p q) ((contrEquiv1 dot_S1024x1024_S1024x128_S1024x128_1_0_0_1_n_n 1024 rfl rfl).symm k) = ix2 p k := funext fun a => Fin.ext (by
    match a with
    | ⟨0, _⟩ => exact lhs_agg_0 _ _
    | ⟨1, _⟩ => exact (lhs_agg_1 _ _).trans hk)
  have er : dot_S1024x1024_S1024x128_S1024x128_1_0_0_1_n_n.rhsIdx (ix2 p q) ((contrEquiv1 dot_S1024x1024_S1024x128_S1024x128_1_0_0_1_n_n 1024 rfl rfl).symm k) = ix2 k q := funext fun a => Fin.ext (by
    match a with
    | ⟨0, _⟩ => exact (rhs_agg_0 _ _).trans hk
    | ⟨1, _⟩ => exact rhs_agg_1 _ _)
  rw [el, er]

theorem lhs_wt_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_wt_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_wt_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_wt_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The product with the transposed weight into the zero block: entry `(p, q)` is the sum over the 128 features. -/
theorem wtDot_apply (A : FVec Ideal S1024x128 .bf16) (B : FVec Ideal S128x128 .bf16) (p : Fin 1024) (q : Fin 128) :
    matmul dot_S1024x128_S128x128_S1024x128_1_0_0_1_n_n none A B (constant (F := Ideal) S1024x128 .f32 0x00000000#32) (ix2 p q)
      = ∑ e : Fin 128, A (ix2 p e) * B (ix2 e q) := by
  refine (Ideal.matmul_constant_zero_apply dot_S1024x128_S128x128_S1024x128_1_0_0_1_n_n none A B (ix2 p q)).trans ?_
  rw [← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p q) ((contrEquiv1 dot_S1024x128_S128x128_S1024x128_1_0_0_1_n_n 128 rfl rfl).symm k) = ix2 p k := funext fun a => Fin.ext (by
    match a with
    | ⟨0, _⟩ => exact lhs_wt_0 _ _
    | ⟨1, _⟩ => exact (lhs_wt_1 _ _).trans hk)
  have er : dot_S1024x128_S128x128_S1024x128_1_0_0_1_n_n.rhsIdx (ix2 p q) ((contrEquiv1 dot_S1024x128_S128x128_S1024x128_1_0_0_1_n_n 128 rfl rfl).symm k) = ix2 k q := funext fun a => Fin.ext (by
    match a with
    | ⟨0, _⟩ => exact (rhs_wt_0 _ _).trans hk
    | ⟨1, _⟩ => exact rhs_wt_1 _ _)
  rw [el, er]

/-- The adding payload at `(p, q)`: the accumulator's entry plus the sum, over the block's 1024 columns `k`, of the
    adjacency entry `(p, k)` times row `p`'s factor times column `k`'s factor times the feature entry `(k, q)`. -/
theorem k1_pay2_apply (v3 : Vec Ideal S1024x1024 .f32) (v5 : Vec Ideal S1024x1 .f32) (v9 : Vec Ideal S1x1024 .f32)
    (v14 : Vec Ideal S1024x128 .f32) (v16 : Vec Ideal S1024x128 .f32) (p : Fin 1024) (q : Fin 128) :
    k1_pay2 (F := Ideal) v3 v5 v9 v14 v16 (ix2 p q)
      = v16 (ix2 p q) + ∑ k : Fin 1024, ((v3 (ix2 p k) * v5 (ix2 p (0 : Fin 1))) * v9 (ix2 (0 : Fin 1) k)) * v14 (ix2 k q) := by
  unfold k1_pay2
  refine (congrFun (shapeCast_self _ _) (ix2 p q)).trans ?_
  refine congrArg (fun a : EReal => v16 (ix2 p q) + a) ?_
  refine (aggDot_apply _ _ p q).trans ?_
  refine Finset.sum_congr rfl fun k _ => ?_
  refine congrArg (fun a : EReal => a * v14 (ix2 k q)) ?_
  refine congrArg₂ (fun a b : EReal => a * b) (congrArg₂ (fun a b : EReal => a * b) ?_ ?_) ?_
  · exact congrFun (shapeCast_self _ _) (ix2 p k)
  · refine (colBroadcast1024_apply _ _ p k).trans ?_
    exact congrFun (shapeCast_self _ _) (ix2 p (0 : Fin 1))
  · refine (broadcastTo_1b_ab_apply _ _ p k).trans ?_
    exact congrFun (shapeCast_self _ _) (ix2 (0 : Fin 1) k)

/-- The finishing payload at `(p, q)`: the sum over the 128 features `e` of the accumulator's entry `(p, e)` times the
    transposed weight's `(e, q)`, plus the bias at `q`. -/
theorem k1_pay3_apply (v25 : Vec Ideal S1024x128 .f32) (v27 : Vec Ideal S128x128 .f32) (v31 : Vec Ideal S1x128 .f32)
    (p : Fin 1024) (q : Fin 128) :
    k1_pay3 (F := Ideal) v25 v27 v31 (ix2 p q)
      = (∑ e : Fin 128, v25 (ix2 p e) * v27 (ix2 e q)) + v31 (ix2 (0 : Fin 1) q) := by
  unfold k1_pay3
  refine congrArg₂ (fun a b : EReal => a + b) ?_ ?_
  · refine (wtDot_apply _ _ p q).trans ?_
    refine Finset.sum_congr rfl fun e _ => ?_
    refine congrArg (fun a : EReal => v25 (ix2 p e) * a) ?_
    exact congrFun (shapeCast_self _ _) (ix2 e q)
  · refine (broadcastTo_1b_ab_apply _ _ p q).trans ?_
    exact congrFun (shapeCast_self _ _) (ix2 (0 : Fin 1) q)

end Payloads

/-! ## The blocks the windows hold, as entries of the arrays -/

section Blocks

/-- The block indices, decided over the grid: point `t` is row block `t / 8` and column block `t % 8`. The adjacency
    window follows both, the feature and column-factor windows the column block, the row-factor and output windows
    the row block; the transposed weight and the bias row are one block each. -/
theorem idx_facts1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = t.val % 8
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val / 8 ∧ win1_6.index t (1 : Fin 2) = 0 :=
  (by decide +kernel : ∀ t : Fin grid1.N, _)

/-- A natural number as a row or column number of the large arrays: itself when below 8192. -/
def wrap8192 (x : ℕ) : Fin 8192 := ⟨x % 8192, Nat.mod_lt x (by decide)⟩

theorem wrap8192_of_lt {x : ℕ} (h : x < 8192) : wrap8192 x = ⟨x, h⟩ := Fin.ext (Nat.mod_eq_of_lt h)

/-- The six input blocks at point `t`, at their literal types. -/
abbrev adjBlk1 (c : Dev nD) (t : Fin cfg1.N) : Vec Ideal S1024x1024 .f32 := iblk1 V c 0 t
abbrev featBlk1 (c : Dev nD) (t : Fin cfg1.N) : Vec Ideal S1024x128 .f32 := iblk1 V c 1 t
abbrev rowfBlk1 (c : Dev nD) (t : Fin cfg1.N) : Vec Ideal S1024x1 .f32 := iblk1 V c 2 t
abbrev colfBlk1 (c : Dev nD) (t : Fin cfg1.N) : Vec Ideal S1x1024 .f32 := iblk1 V c 3 t
abbrev wtBlk1 (c : Dev nD) (t : Fin cfg1.N) : Vec Ideal S128x128 .f32 := iblk1 V c 4 t
abbrev biasBlk1 (c : Dev nD) (t : Fin cfg1.N) : Vec Ideal S1x128 .f32 := iblk1 V c 5 t

/-- The adjacency block at point `t`: rows `1024 (t / 8) + p`, columns `1024 (t % 8) + k`. -/
theorem adjBlk1_apply (c : Dev nD) (t : Fin cfg1.N) (p k : Fin 1024) :
    adjBlk1 V c t (ix2 p k)
      = adjIn1 V c (ix2 (wrap8192 (1024 * (t.val / 8) + p.val)) (wrap8192 (1024 * (t.val % 8) + k.val))) := by
  have ht : t.val < 64 := lt_of_lt_of_eq t.isLt N_1
  obtain ⟨e0, e1, -⟩ := idx_facts1 t
  unfold adjBlk1 iblk1
  rw [View.read_apply]
  show V c main_v26 _ = V c main_v26 _
  refine congrArg (V c main_v26) (funext fun a => Fin.ext ?_)
  match a with
  | ⟨0, _⟩ => show win1_0.index t (0 : Fin 2) * 1024 + 1 * p.val = (1024 * (t.val / 8) + p.val) % 8192; rw [e0]; omega
  | ⟨1, _⟩ => show win1_0.index t (1 : Fin 2) * 1024 + 1 * k.val = (1024 * (t.val % 8) + k.val) % 8192; rw [e1]; omega

/-- The feature block at point `t`: rows `1024 (t % 8) + k`, every feature. -/
theorem featBlk1_apply (c : Dev nD) (t : Fin cfg1.N) (k : Fin 1024) (e : Fin 128) :
    featBlk1 V c t (ix2 k e) = featIn V c (ix2 (wrap8192 (1024 * (t.val % 8) + k.val)) e) := by
  have ht : t.val < 64 := lt_of_lt_of_eq t.isLt N_1
  obtain ⟨-, -, e0, e1, -⟩ := idx_facts1 t
  unfold featBlk1 iblk1
  rw [View.read_apply]
  show V c main_arg0 _ = V c main_arg0 _
  refine congrArg (V c main_arg0) (funext fun a => Fin.ext ?_)
  match a with
  | ⟨0, _⟩ => show win1_1.index t (0 : Fin 2) * 1024 + 1 * k.val = (1024 * (t.val % 8) + k.val) % 8192; rw [e0]; omega
  | ⟨1, _⟩ => show win1_1.index t (1 : Fin 2) * 128 + 1 * e.val = e.val; rw [e1]; omega

/-- The row-factor block at point `t`: rows `1024 (t / 8) + p`. -/
theorem rowfBlk1_apply (c : Dev nD) (t : Fin cfg1.N) (p : Fin 1024) :
    rowfBlk1 V c t (ix2 p (0 : Fin 1)) = rowfIn V c (ix2 (wrap8192 (1024 * (t.val / 8) + p.val)) (0 : Fin 1)) := by
  have ht : t.val < 64 := lt_of_lt_of_eq t.isLt N_1
  obtain ⟨-, -, -, -, e0, e1, -⟩ := idx_facts1 t
  unfold rowfBlk1 iblk1
  rw [View.read_apply]
  show V c main_v33 _ = V c main_v33 _
  refine congrArg (V c main_v33) (funext fun a => Fin.ext ?_)
  match a with
  | ⟨0, _⟩ => show win1_2.index t (0 : Fin 2) * 1024 + 1 * p.val = (1024 * (t.val / 8) + p.val) % 8192; rw [e0]; omega
  | ⟨1, _⟩ => show win1_2.index t (1 : Fin 2) * 1 + 1 * 0 = 0; rw [e1]

/-- The column-factor block at point `t`: columns `1024 (t % 8) + k`. -/
theorem colfBlk1_apply (c : Dev nD) (t : Fin cfg1.N) (k : Fin 1024) :
    colfBlk1 V c t (ix2 (0 : Fin 1) k) = colfIn V c (ix2 (0 : Fin 1) (wrap8192 (1024 * (t.val % 8) + k.val))) := by
  have ht : t.val < 64 := lt_of_lt_of_eq t.isLt N_1
  obtain ⟨-, -, -, -, -, -, e0, e1, -⟩ := idx_facts1 t
  unfold colfBlk1 iblk1
  rw [View.read_apply]
  show V c main_v34 _ = V c main_v34 _
  refine congrArg (V c main_v34) (funext fun a => Fin.ext ?_)
  match a with
  | ⟨0, _⟩ => show win1_3.index t (0 : Fin 2) * 1 + 1 * 0 = 0; rw [e0]
  | ⟨1, _⟩ => show win1_3.index t (1 : Fin 2) * 1024 + 1 * k.val = (1024 * (t.val % 8) + k.val) % 8192; rw [e1]; omega

/-- The transposed weight's one block is the array. -/
theorem wtBlk1_apply (c : Dev nD) (t : Fin cfg1.N) (e q : Fin 128) :
    wtBlk1 V c t (ix2 e q) = wtIn V c (ix2 e q) := by
  obtain ⟨-, -, -, -, -, -, -, -, e0, e1, -⟩ := idx_facts1 t
  unfold wtBlk1 iblk1
  rw [View.read_apply]
  show V c main_v35 _ = V c main_v35 _
  refine congrArg (V c main_v35) (funext fun a => Fin.ext ?_)
  match a with
  | ⟨0, _⟩ => show win1_4.index t (0 : Fin 2) * 128 + 1 * e.val = e.val; rw [e0]; omega
  | ⟨1, _⟩ => show win1_4.index t (1 : Fin 2) * 128 + 1 * q.val = q.val; rw [e1]; omega

/-- The bias row's one block is the array. -/
theorem biasBlk1_apply (c : Dev nD) (t : Fin cfg1.N) (q : Fin 128) :
    biasBlk1 V c t (ix2 (0 : Fin 1) q) = biasIn V c (ix2 (0 : Fin 1) q) := by
  obtain ⟨-, -, -, -, -, -, -, -, -, -, e0, e1, -⟩ := idx_facts1 t
  unfold biasBlk1 iblk1
  rw [View.read_apply]
  show V c main_v36 _ = V c main_v36 _
  refine congrArg (V c main_v36) (funext fun a => Fin.ext ?_)
  match a with
  | ⟨0, _⟩ => show win1_5.index t (0 : Fin 2) * 1 + 1 * 0 = 0; rw [e0]
  | ⟨1, _⟩ => show win1_5.index t (1 : Fin 2) * 128 + 1 * q.val = q.val; rw [e1]; omega

end Blocks

/-! ## The accumulator after each point -/

section Invariant

/-- Column `J`'s term of the aggregate of row `r` and feature `e`. -/
def aggTerm (c : Dev nD) (r : Fin 8192) (e : Fin 128) (J : Fin 8192) : EReal :=
  ((adjIn1 V c (ix2 r J) * rowfIn V c (ix2 r (0 : Fin 1))) * colfIn V c (ix2 (0 : Fin 1) J)) * featIn V c (ix2 J e)

/-- What column block `s` (columns `1024 s … 1024 s + 1023`) contributes to the aggregate of row `r` and feature `e`. -/
def aggBlockSum (c : Dev nD) (r : Fin 8192) (e : Fin 128) (s : ℕ) : EReal :=
  ∑ k : Fin 1024, aggTerm V c r e (wrap8192 (1024 * s + k.val))

/-- The adding payload of point `t`'s blocks at `(p, e)`: the accumulator's entry plus what column block `t % 8`
    contributes to row `1024 (t / 8) + p`. -/
theorem aggStep_apply (c : Dev nD) (t : Fin cfg1.N) (acc : Vec Ideal S1024x128 .f32) (p : Fin 1024) (e : Fin 128) :
    k1_pay2 (F := Ideal) (adjBlk1 V c t) (rowfBlk1 V c t) (colfBlk1 V c t) (featBlk1 V c t) acc (ix2 p e)
      = acc (ix2 p e) + aggBlockSum V c (wrap8192 (1024 * (t.val / 8) + p.val)) e (t.val % 8) := by
  refine (k1_pay2_apply (adjBlk1 V c t) (rowfBlk1 V c t) (colfBlk1 V c t) (featBlk1 V c t) acc p e).trans ?_
  refine congrArg (fun a : EReal => acc (ix2 p e) + a) ?_
  unfold aggBlockSum aggTerm
  refine Finset.sum_congr rfl fun k _ => ?_
  rw [adjBlk1_apply V c t p k, rowfBlk1_apply V c t p, colfBlk1_apply V c t k, featBlk1_apply V c t k e]

/-- A first point of a row of blocks leaves the adding payload over the zero block. -/
theorem acc1_A (c : Dev nD) (t : Fin cfg1.N) (h0 : t.val % 8 = 0) :
    (outsAt1 V c t.val t.isLt).2 = k1_pay2 (F := Ideal) (adjBlk1 V c t) (rowfBlk1 V c t) (colfBlk1 V c t) (featBlk1 V c t) (k1_pay1 (F := Ideal)) :=
  (outsAt1_A V c t h0).trans (sout1_A_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => not7_of_0' h0 ((hcond1_1 t).mp h)) (iblk1 V c 0 t) (iblk1 V c 1 t) (iblk1 V c 2 t) (iblk1 V c 3 t) (iblk1 V c 4 t) (iblk1 V c 5 t))

/-- A middle point leaves the adding payload over what the point before left. -/
theorem acc1_B (c : Dev nD) (t : Fin cfg1.N) (h0 : ¬t.val % 8 = 0) (h1 : ¬t.val % 8 = 7) :
    (outsAt1 V c t.val t.isLt).2 = k1_pay2 (F := Ideal) (adjBlk1 V c t) (rowfBlk1 V c t) (colfBlk1 V c t) (featBlk1 V c t) (outsAt1 V c (t.val - 1) (Nat.lt_of_le_of_lt (Nat.sub_le _ _) t.isLt)).2 :=
  (outsAt1_B V c t h0 h1).trans (sout1_B_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2)

/-- So does the last point of a row of blocks, in the accumulator. -/
theorem acc1_C (c : Dev nD) (t : Fin cfg1.N) (h0 : ¬t.val % 8 = 0) (h1 : t.val % 8 = 7) :
    (outsAt1 V c t.val t.isLt).2 = k1_pay2 (F := Ideal) (adjBlk1 V c t) (rowfBlk1 V c t) (colfBlk1 V c t) (featBlk1 V c t) (outsAt1 V c (t.val - 1) (Nat.lt_of_le_of_lt (Nat.sub_le _ _) t.isLt)).2 := by
  rw [outsAt1_C V c t h0 h1]
  dsimp only
  exact sout1_C_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2

/-- In the output block the last point leaves the finishing payload of the accumulator it leaves. -/
theorem out1_C_acc (c : Dev nD) (t : Fin cfg1.N) (h0 : ¬t.val % 8 = 0) (h1 : t.val % 8 = 7) :
    (outsAt1 V c t.val t.isLt).1 = k1_pay3 (F := Ideal) (outsAt1 V c t.val t.isLt).2 (wtBlk1 V c t) (biasBlk1 V c t) := by
  rw [outsAt1_C V c t h0 h1]
  dsimp only
  refine (out1_C_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2).trans ?_
  refine congrArg (fun a : Vec Ideal S1024x128 .f32 => k1_pay3 (F := Ideal) a (iblk1 V c 4 t) (iblk1 V c 5 t)) ?_
  exact (sout1_C_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2).symm

/-- After a first point of a row of blocks the accumulator holds the first column block's contribution. -/
theorem acc1_reset (c : Dev nD) (t : Fin cfg1.N) (h0 : t.val % 8 = 0) (p : Fin 1024) (e : Fin 128) :
    (outsAt1 V c t.val t.isLt).2 (ix2 p e)
      = ∑ s ∈ Finset.range (t.val % 8 + 1), aggBlockSum V c (wrap8192 (1024 * (t.val / 8) + p.val)) e s := by
  rw [acc1_A V c t h0]
  refine (aggStep_apply V c t _ p e).trans ?_
  rw [k1_pay1_apply, zero_add, h0, Nat.zero_add, Finset.sum_range_one]

/-- THE INVARIANT. After point `n` (row block `n / 8`, column block `n % 8`) the accumulator's entry `(p, e)` is the
    sum of the contributions of column blocks `0 … n % 8` to row `1024 (n / 8) + p` and feature `e`: a first point
    starts the sum from zero, every other point adds its block's contribution to what the point before left. -/
theorem acc1_eq (c : Dev nD) : ∀ (n : ℕ) (hn : n < cfg1.N) (p : Fin 1024) (e : Fin 128),
    (outsAt1 V c n hn).2 (ix2 p e)
      = ∑ s ∈ Finset.range (n % 8 + 1), aggBlockSum V c (wrap8192 (1024 * (n / 8) + p.val)) e s
  | 0, hn, p, e => acc1_reset V c ⟨0, hn⟩ rfl p e
  | n + 1, hn, p, e => by
    by_cases h0 : (n + 1) % 8 = 0
    · exact acc1_reset V c ⟨n + 1, hn⟩ h0 p e
    · have ih := acc1_eq c n (Nat.lt_of_succ_lt hn) p e
      have hd : (n + 1) / 8 = n / 8 := by omega
      have hm : (n + 1) % 8 = n % 8 + 1 := by omega
      have hstep : (outsAt1 V c (n + 1) hn).2
          = k1_pay2 (F := Ideal) (adjBlk1 V c ⟨n + 1, hn⟩) (rowfBlk1 V c ⟨n + 1, hn⟩) (colfBlk1 V c ⟨n + 1, hn⟩) (featBlk1 V c ⟨n + 1, hn⟩)
              (outsAt1 V c n (Nat.lt_of_succ_lt hn)).2 := by
        by_cases h7 : (n + 1) % 8 = 7
        · exact acc1_C V c ⟨n + 1, hn⟩ h0 h7
        · exact acc1_B V c ⟨n + 1, hn⟩ h0 h7
      rw [hstep]
      refine (aggStep_apply V c ⟨n + 1, hn⟩ _ p e).trans ?_
      show (outsAt1 V c n _).2 (ix2 p e) + aggBlockSum V c (wrap8192 (1024 * ((n + 1) / 8) + p.val)) e ((n + 1) % 8) = _
      rw [ih, hd, hm]
      exact (Finset.sum_range_succ (fun s => aggBlockSum V c (wrap8192 (1024 * (n / 8) + p.val)) e s) (n % 8 + 1)).symm

end Invariant

/-! ## The stored block, the cover, and the result array -/

section Result

/-- The eight column blocks' contributions add up to the aggregate over all 8192 columns. -/
theorem aggBlocks_total (c : Dev nD) (r : Fin 8192) (e : Fin 128) :
    ∑ s ∈ Finset.range 8, aggBlockSum V c r e s = ∑ J : Fin 8192, aggTerm V c r e J := by
  refine ((Fin.sum_univ_eq_sum_range (fun s => aggBlockSum V c r e s) 8).symm).trans ?_
  refine Eq.trans ?_ (Cert.LibSumBlocks.sum_blocks (A := 8) (B := 1024) (N := 8192) (by decide) (fun J => aggTerm V c r e J))
  refine Finset.sum_congr rfl fun s _ => ?_
  unfold aggBlockSum
  refine Finset.sum_congr rfl fun k _ => ?_
  exact congrArg (aggTerm V c r e) (wrap8192_of_lt _)

/-- Entry `(r, cc)` of the result: the aggregate of row `r` times the transposed weight's column `cc`, plus the bias. -/
def resVal1 (c : Dev nD) (r : Fin 8192) (cc : Fin 128) : EReal :=
  (∑ e : Fin 128, (∑ J : Fin 8192, aggTerm V c r e J) * wtIn V c (ix2 e cc)) + biasIn V c (ix2 (0 : Fin 1) cc)

/-- The output block a last point of a row of blocks stores: rows `1024 (t / 8) + p` of the result. -/
theorem out1_entry (c : Dev nD) (t : Fin cfg1.N) (h7 : t.val % 8 = 7) (p : Fin 1024) (q : Fin 128) :
    (outsAt1 V c t.val t.isLt).1 (ix2 p q) = resVal1 V c (wrap8192 (1024 * (t.val / 8) + p.val)) q := by
  have h0 : ¬t.val % 8 = 0 := by omega
  rw [out1_C_acc V c t h0 h7]
  refine (k1_pay3_apply _ (wtBlk1 V c t) (biasBlk1 V c t) p q).trans ?_
  unfold resVal1
  refine congrArg₂ (fun a b : EReal => a + b)
    (Finset.sum_congr rfl fun e _ => congrArg₂ (fun a b : EReal => a * b) ?_ (wtBlk1_apply V c t e q)) (biasBlk1_apply V c t q)
  rw [acc1_eq V c t.val t.isLt p e, h7]
  exact aggBlocks_total V c _ e

/-- The result array as one function of the arrays the region is entered with. -/
def resFn1 (c : Dev nD) : S8192x128.Idx → EReal :=
  fun i => resVal1 V c ⟨(i 0).val, (i 0).isLt⟩ ⟨(i 1).val, (i 1).isLt⟩

/-- What a last point of a row of blocks writes back is its block of the result. -/
theorem flushed1_eq (c : Dev nD) (t : Fin cfg1.N) (hf : (cfg1.win 6).flush t = true) :
    (dat1 (F := Ideal) V c).flushed 6 t = ((cfg1.win 6).blk t).view.read (Elt Ideal) (resFn1 V c) := by
  have h7 : t.val % 8 = 7 := (flush1_6 t).mp hf
  have ht : t.val < 64 := lt_of_lt_of_eq t.isLt N_1
  obtain ⟨-, -, -, -, -, -, -, -, -, -, -, -, e0, e1⟩ := idx_facts1 t
  show (cfg1.win 6).cut (grid1.coords t) ((dat1 (F := Ideal) V c).after 6 t) = _
  rw [after1_6]
  funext y
  have hy0 : (y 0).val < 1024 := (y 0).isLt
  have hy1 : (y 1).val < 128 := (y 1).isLt
  rw [View.read_apply]
  refine Eq.trans (congrArg (outsAt1 V c t.val t.isLt).1
    (show (cfg1.win 6).xinj (grid1.coords t) y = ix2 (⟨(y 0).val, hy0⟩ : Fin 1024) (⟨(y 1).val, hy1⟩ : Fin 128) from
      funext fun a => by match a with | ⟨0, _⟩ => rfl | ⟨1, _⟩ => rfl)) ?_
  rw [out1_entry V c t h7]
  show resVal1 V c _ _ = resFn1 V c (((cfg1.win 6).blk t).view.emb y)
  unfold resFn1
  refine congrArg₂ (resVal1 V c) (Fin.ext ?_) (Fin.ext ?_)
  · show (1024 * (t.val / 8) + (y 0).val) % 8192 = win1_6.index t (0 : Fin 2) * 1024 + 1 * (y 0).val
    rw [e0]; omega
  · show (y 1).val = win1_6.index t (1 : Fin 2) * 128 + 1 * (y 1).val
    rw [e1]; omega

/-- An entry of the result array lies in point `t`'s output block iff each coordinate is in the block's range. -/
theorem mem_outBlk1 (t : Fin cfg1.N) (i : S8192x128.Idx) :
    i ∈ ((cfg1.win 6).blk t).view.set
      ↔ ∀ a : Fin 2, win1_6.index t a * S1024x128.size a ≤ (i a).val ∧ (i a).val < win1_6.index t a * S1024x128.size a + S1024x128.size a := by
  show i ∈ ((View.whole main_v37).slice (win1_6.rect t)).set ↔ _
  rw [View.set_slice_whole, Rect.mem_set_unit]
  exact Iff.rfl

/-- Row `r` is written back by the last point of its row block, `t = 8 (r / 1024) + 7`; so the array ends as `resFn1`. -/
theorem final1 (c : Dev nD) : (dat1 (F := Ideal) V c).arrAt 6 cfg1.N = resFn1 V c :=
  (dat1 (F := Ideal) V c).arrAt_eq_of_cover 6 (resFn1 V c) (flushed1_eq V c) fun i => by
    have hi0 : (i 0).val < 8192 := (i 0).isLt
    have hi1 : (i 1).val < 128 := (i 1).isLt
    have hN : cfg1.N = 64 := N_1
    have hlt : 8 * ((i 0).val / 1024) + 7 < cfg1.N := by rw [hN]; omega
    have h7 : (⟨8 * ((i 0).val / 1024) + 7, hlt⟩ : Fin cfg1.N).val % 8 = 7 := by
      show (8 * ((i 0).val / 1024) + 7) % 8 = 7; omega
    have hq : (⟨8 * ((i 0).val / 1024) + 7, hlt⟩ : Fin cfg1.N).val / 8 = (i 0).val / 1024 := by
      show (8 * ((i 0).val / 1024) + 7) / 8 = (i 0).val / 1024; omega
    obtain ⟨-, -, -, -, -, -, -, -, -, -, -, -, e0, e1⟩ := idx_facts1 ⟨8 * ((i 0).val / 1024) + 7, hlt⟩
    refine ⟨⟨8 * ((i 0).val / 1024) + 7, hlt⟩, (flush1_6 _).mpr h7, ?_⟩
    rw [mem_outBlk1]
    intro a
    match a with
    | ⟨0, _⟩ =>
      show win1_6.index ⟨8 * ((i 0).val / 1024) + 7, hlt⟩ (0 : Fin 2) * 1024 ≤ (i 0).val
        ∧ (i 0).val < win1_6.index ⟨8 * ((i 0).val / 1024) + 7, hlt⟩ (0 : Fin 2) * 1024 + 1024
      rw [e0, hq]; omega
    | ⟨1, _⟩ =>
      show win1_6.index ⟨8 * ((i 0).val / 1024) + 7, hlt⟩ (1 : Fin 2) * 128 ≤ (i 1).val
        ∧ (i 1).val < win1_6.index ⟨8 * ((i 0).val / 1024) + 7, hlt⟩ (1 : Fin 2) * 128 + 128
      rw [e1]; omega

end Result

/-- The result array after the region, entry by entry. -/
theorem out_arr (c : Dev nD) (r : Fin 8192) (cc : Fin 128) :
    resOut V c (ix2 r cc)
      = (∑ e : Fin 128, (∑ J : Fin 8192,
            ((adjIn1 V c (ix2 r J) * rowfIn V c (ix2 r (0 : Fin 1))) * colfIn V c (ix2 (0 : Fin 1) J)) * featIn V c (ix2 J e))
          * wtIn V c (ix2 e cc))
        + biasIn V c (ix2 (0 : Fin 1) cc) := by
  show (dat1 (F := Ideal) V c).arrAt 6 cfg1.N (ix2 r cc) = _
  rw [final1 V c]
  show resVal1 V c r cc = _
  unfold resVal1 aggTerm
  rfl

end Cert.KernelIdeal.Val

end
-- ==== Proof.Bridge.lean ====
/-
  The kernel program's result array is the specification's function of the adjacency its host operations build and
  of the float arguments. The second region leaves, entry by entry, the double sum over features and columns of the
  scaled adjacency times the features times the transposed weight, plus the bias (the region's value); the arrays it
  read are the adjacency and features as launched, the factors `dinv` of the degrees the first region left — and
  those degrees are the adjacency's row sums (the first region's value) —, the weight transposed and the bias as a row.
-/
import proofs.«144742_j32641751449979_1_alg».proof.Proof.Host
import proofs.«144742_j32641751449979_1_alg».proof.Proof.Val0
import proofs.«144742_j32641751449979_1_alg».proof.Proof.Val1
import proofs.«144742_j32641751449979_1_alg».proof.Proof.Spec

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx
open Idealize.ShloMosaic.Pipeline (Dat Cfg Window)
open scoped BigOperators

variable (m : (ℓ : Loc nD τ sig) → Buf (Elt Ideal) ℓ) (c : Dev nD)

/-- The degree the first region leaves at row `r` is the specification's. -/
theorem degK_apply (r : Fin 8192) : degK m c (ix2 r (0 : Fin 1)) = Cert.Spec.deg (adjK m c) r :=
  deg_arr (Frame.V1 (F := Ideal) m) c r

/-- One entry of the result array, as the specification's. -/
theorem kernel_entry (r : Fin 8192) (cc : Fin 128) :
    resOut (Frame.V5 (F := Ideal) m) c (ix2 r cc) = Cert.Spec.out (adjK m c) (featK m c) (weightK m c) (biasK m c) (ix2 r cc) := by
  rw [out_arr]
  show (∑ e : Fin 128, (∑ J : Fin 8192,
            ((adj5 m c (ix2 r J) * rowf5 m c (ix2 r (0 : Fin 1))) * colf5 m c (ix2 (0 : Fin 1) J)) * feat5 m c (ix2 J e))
          * wt5 m c (ix2 e cc))
        + bias5 m c (ix2 (0 : Fin 1) cc)
      = (∑ e : Fin 128, (∑ J : Fin 8192,
            ((adjK m c (ix2 r J) * Cert.Spec.dinv (Cert.Spec.deg (adjK m c) r)) * Cert.Spec.dinv (Cert.Spec.deg (adjK m c) J)) * featK m c (ix2 J e))
          * weightK m c (ix2 cc e))
        + biasK m c (ix1 cc)
  rw [bias5_apply]
  refine congrArg (· + _) (Finset.sum_congr rfl fun e _ => ?_)
  rw [wt5_apply]
  refine congrArg (· * _) (Finset.sum_congr rfl fun J _ => ?_)
  rw [colf5_apply, rowf5_eq, dinvCol_apply, dinvCol_apply, degK_apply, degK_apply, adj5_eq, feat5_eq]

/-- The result array, as the specification's function. -/
theorem kernel_out : resOut (Frame.V5 (F := Ideal) m) c = Cert.Spec.out (adjK m c) (featK m c) (weightK m c) (biasK m c) := by
  funext i
  obtain ⟨r, cc, rfl⟩ : ∃ (r : Fin 8192) (cc : Fin 128), i = ix2 r cc := ⟨i 0, i 1, eq_ix2 i⟩
  exact kernel_entry m c r cc

end Cert.KernelIdeal.Val

end
-- ==== Proof.lean ====
/-
  The claim. Both programs compute, over the extended reals, one function of the inputs (Proof/Spec.lean): the dense
  adjacency with self loops is scaled entry by entry by one over the square roots of its row's and its column's degree,
  multiplied with the features, then with the transposed weight, and the bias is added. The kernel program does it in
  two pipelined regions whose accumulators add the sums block of columns by block of columns; the reference in whole
  arrays. The sums agree because addition of extended reals is associative and commutative; no law used here needs a
  finite input.

  The three frames: each kernel program's launch (Proof/KB/Run.lean at the word level, Proof/KI/Run.lean at the ideal
  values) ends with every unscoped buffer at named contents, the four arguments as launched; the reference's run leaves
  its arguments unchanged. The idealization rewrote nothing, so there is nothing to preserve. The two ideal runs end
  with equal results: the kernel program's result array is the specification at the adjacency its host operations build
  (Proof/Bridge.lean), the reference's is the specification at its own adjacency stage (Proof/RefValue.lean), and the two
  adjacencies are the same function of the edge list (Proof/Adj.lean).
-/
import proofs.«144742_j32641751449979_1_alg».proof.Defs
import proofs.«144742_j32641751449979_1_alg».proof.Proof.Gen.Kernel
import proofs.«144742_j32641751449979_1_alg».proof.Proof.Gen.KernelIdeal
import proofs.«144742_j32641751449979_1_alg».proof.Proof.Gen.ReferenceIdeal
import proofs.«144742_j32641751449979_1_alg».proof.Proof.Gen.Pre_finite_inputs
import proofs.«144742_j32641751449979_1_alg».proof.Proof.KB.Run
import proofs.«144742_j32641751449979_1_alg».proof.Proof.KI.Run
import proofs.«144742_j32641751449979_1_alg».proof.Proof.RefReadP
import proofs.«144742_j32641751449979_1_alg».proof.Proof.RefValue
import proofs.«144742_j32641751449979_1_alg».proof.Proof.Adj
import proofs.«144742_j32641751449979_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel program's result, as the specification at its own adjacency and arguments. -/
theorem kernel_value (m : (ℓ : Loc Cert.KernelIdeal.nD Cert.KernelIdeal.τ Cert.KernelIdeal.sig) → Buf (Elt Ideal) ℓ) (c : Dev Cert.KernelIdeal.nD) :
    (Cert.KernelIdeal.Frame.dat1 (F := Ideal) (Cert.KernelIdeal.Frame.V5 m) c).arrAt 6 Cert.KernelIdeal.cfg1.N
      = Cert.Spec.out (Cert.ReferenceIdeal.Read.val_main_v26 (F := Ideal) (m ((c.tc : Thread Cert.KernelIdeal.nD Cert.KernelIdeal.τ).loc Cert.KernelIdeal.main_arg1)))
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) :=
  (Cert.KernelIdeal.Val.kernel_out m c).trans
    (congrArg (fun A => Cert.Spec.out A _ _ _) (Cert.Bridge.adj_eq (F := Ideal) (Cert.KernelIdeal.Frame.W0 m c)))

theorem algebraic : Cert.algebraic_KernelIdeal_ReferenceIdeal := by
  intro m ρ m' ρ' _ hagree
  refine ⟨fun c => (Cert.KernelIdeal.Frame.dat1 (F := Ideal) (Cert.KernelIdeal.Frame.V5 m) c).arrAt 6 Cert.KernelIdeal.cfg1.N,
    Cert.KernelIdeal.Frame.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.ReferenceIdeal.RefValue.ref_out,
    (hagree c).1, (hagree c).2.1, (hagree c).2.2.1, (hagree c).2.2.2]
  exact (kernel_value m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
